-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S768x256 : Shape := ⟨2, ![768, 256]⟩
abbrev S768 : Shape := ⟨1, ![768]⟩
abbrev S4x1x4096 : Shape := ⟨3, ![4, 1, 4096]⟩
abbrev S_ : Shape := ⟨0, ![]⟩
abbrev S4x1 : Shape := ⟨2, ![4, 1]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S4x1x4096 : S_.BroadcastsInDim S4x1x4096 (![] : Fin 0 → Fin S4x1x4096.rank)
  reducesTo_S4x1x4096_S4x1_d2 : S4x1x4096.ReducesTo [2] S4x1
  reducesTo_S4x1_S_d0_1 : S4x1.ReducesTo [0, 1] S_

variable [Facts]

def fn_part1 {F : FTy → Type} [FloatOps F] (main_v13 : IVec S_ 1) (main_v15 : IVec S4x1x4096 1) (main_c_5 : IVec S_ 1) : IVec S_ 1 :=
  let main_v16 : IVec S4x1 1 := (fun x v => Host.reduce IntOp.ori x v reducesTo_S4x1x4096_S4x1_d2 h_S_) main_v15 main_c_5
  let main_c_6 : IVec S_ 1 := constantI S_ 1 1#1
  let main_v17 : IVec S_ 1 := (fun x v => Host.reduce IntOp.andi x v reducesTo_S4x1_S_d0_1 h_S_) main_v16 main_c_6
  let main_v18 : IVec S_ 1 := andi main_v13 main_v17
  main_v18

def fn {F : FTy → Type} [FloatOps F] (main_arg0 : FVec F S4x4096x256 .f32) (main_arg1 : FVec F S768x256 .f32) (main_arg2 : FVec F S768 .f32) (main_arg3 : IVec S4x1x4096 32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_c_4 : IVec S_ 32 := constantI S_ 32 0#32
  let main_v14 : IVec S4x1x4096 32 := broadcastInDim S4x1x4096 ![] bcast_S_S4x1x4096 main_c_4
  let main_v15 : IVec S4x1x4096 1 := cmpi .ne main_arg3 main_v14
  let main_c_5 : IVec S_ 1 := constantI S_ 1 0#1
  fn_part1 (F := F) main_v13 main_v15 main_c_5
-- ==== Kernel.lean ====
abbrev S4x4096x256 : Shape := ⟨3, ![4, 4096, 256]⟩
abbrev S768x256 : Shape := ⟨2, ![768, 256]⟩
abbrev S768 : Shape := ⟨1, ![768]⟩
abbrev S4x1x4096 : Shape := ⟨3, ![4, 1, 4096]⟩
abbrev S256x256 : Shape := ⟨2, ![256, 256]⟩
abbrev S256 : Shape := ⟨1, ![256]⟩
abbrev S1x256 : Shape := ⟨2, ![1, 256]⟩
abbrev S1x4096x256 : Shape := ⟨3, ![1, 4096, 256]⟩
abbrev S1x1x4096 : Shape := ⟨3, ![1, 1, 4096]⟩
abbrev S1x1024x256 : Shape := ⟨3, ![1, 1024, 256]⟩
abbrev S4096x256 : Shape := ⟨2, ![4096, 256]⟩
abbrev S1x4096 : Shape := ⟨2, ![1, 4096]⟩
abbrev S4096 : Shape := ⟨1, ![4096]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 11
  | .vmem => 12
  | .smem => 0
  | _ => 0

abbrev bufTy : (tb : Table) → Fin (tcTables nBuf tb) → BufTy
  | .hbm, ⟨0, _⟩ => ⟨S4x4096x256, .f32⟩
  | .hbm, ⟨1, _⟩ => ⟨S768x256, .f32⟩
  | .hbm, ⟨2, _⟩ => ⟨S768, .f32⟩
  | .hbm, ⟨3, _⟩ => ⟨S4x1x4096, .i32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S256, .f32⟩
  | .hbm, ⟨9, _⟩ => ⟨S1x256, .f32⟩
  | .hbm, ⟨10, _⟩ => ⟨S4x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S1x1x4096, .i32⟩
  | .local _ .vmem, ⟨7, _⟩ => ⟨S1x1x4096, .i32⟩
  | .local _ .vmem, ⟨8, _⟩ => ⟨S1x1024x256, .f32⟩
  | .local _ .vmem, ⟨9, _⟩ => ⟨S1x1024x256, .f32⟩
  | .local _ .vmem, ⟨10, _⟩ => ⟨S4096x256, .bf16⟩
  | .local _ .vmem, ⟨11, _⟩ => ⟨S1x4096, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 3 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0_1 : Index := 0#32
  ![0, v5.toNat, 0]
@[reducible] def k0_t1_loop : Scf.Loop 32 :=
  let c0_i32_9 : BitVec 32 := 0#32
  let c4_i32 : BitVec 32 := 4#32
  let v21 : BitVec 32 := Scalar.addi c0_i32_9 c4_i32
  let c1_i32 : BitVec 32 := 1#32
  ⟨c0_i32_9, v21, c1_i32⟩
def k0_mult2 (k0_t1 : Fin k0_t1_loop.trips) : BitVec 32 :=
  let c0_i32_9 : BitVec 32 := 0#32
  let c1_i32 : BitVec 32 := 1#32
  let arg11 : BitVec 32 := Scf.iv c0_i32_9 c1_i32 k0_t1
  let c1024_i32_14 : BitVec 32 := 1024#32
  let v28 : BitVec 32 := Scalar.muli arg11 c1024_i32_14
  v28
def k0_off2 (k0_t1 : Fin k0_t1_loop.trips) : Fin 2 → Nat :=
  let c0_i32_9 : BitVec 32 := 0#32
  let c1_i32 : BitVec 32 := 1#32
  let arg11 : BitVec 32 := Scf.iv c0_i32_9 c1_i32 k0_t1
  let c1024_i32_14 : BitVec 32 := 1024#32
  let v28 : BitVec 32 := Scalar.muli arg11 c1024_i32_14
  let v29 : BitVec 32 := v28
  let v30 : Index := Scalar.indexCast v29
  let c0_15 : Index := 0#32
  ![v30.toNat, 0]
def k0_off3 (k0_t1 : Fin k0_t1_loop.trips) : Fin 2 → Nat :=
  let c0_16 : Index := 0#32
  let c0_i32_9 : BitVec 32 := 0#32
  let c1_i32 : BitVec 32 := 1#32
  let arg11 : BitVec 32 := Scf.iv c0_i32_9 c1_i32 k0_t1
  let c1024_i32_14 : BitVec 32 := 1024#32
  let v28 : BitVec 32 := Scalar.muli arg11 c1024_i32_14
  let v29 : BitVec 32 := v28
  let v32 : Index := Scalar.indexCast v29
  ![0, v32.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S768x256_S256x256_0_0 : S768x256.Slices ![0, 0] S256x256
  slices_S768x256_S256x256_512_0 : S768x256.Slices ![512, 0] S256x256
  slices_S768_S256_0 : S768.Slices ![0] S256
  shapeCasts_S256_S1x256 : S256.ShapeCasts S1x256
  slices_S768_S256_512 : S768.Slices ![512] S256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  h_S1x1024x256 : 0 < S1x1024x256.numel
  shapeCasts_S1x1024x256_S1024x256 : S1x1024x256.ShapeCasts S1024x256
  broadcasts_S1x256_S1024x256 : S1x256.Broadcasts S1024x256
  h_S1024x256 : 0 < S1024x256.numel
  h_S1x1024 : 0 < S1x1024.numel
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  inb_S1x1024x256_S1x1024x256_0_0_0 : ∀ a, (![0, 0, 0] : Fin 3 → Nat) a + S1x1024x256.size a ≤ S1x1024x256.size a
  shapeCasts_S1024x256_S1x1024x256 : S1024x256.ShapeCasts S1x1024x256
  dot_S4096x256_S256x256_S4096x256_1_1_0_0_n_n_wf : DotDims.WF S4096x256 S256x256 S4096x256 [1] [1] [0] [0] [] []
  dot_S1024x256_S256x256_S1024x256_1_1_0_0_n_n_wf : DotDims.WF S1024x256 S256x256 S1024x256 [1] [1] [0] [0] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x256.size a ≤ S1x4096x256.size a
  k0_t1_ok : k0_t1_loop.OK
  k0_mult2_dvd : ∀ k0_t1 : Fin k0_t1_loop.trips, 1024 ∣ (k0_mult2 k0_t1).toNat
  k0_off2_inb : ∀ k0_t1 : Fin k0_t1_loop.trips, ∀ a, (k0_off2 k0_t1) a + S1024x256.size a ≤ S4096x256.size a
  k0_off3_inb : ∀ k0_t1 : Fin k0_t1_loop.trips, ∀ a, (k0_off3 k0_t1) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4096.size a ≤ S4x1x4096.size a
  hwx0_5 : ∀ i : grid0.Coords, EltTy.bits .i32 = 32 ∨ (Rect.block (s := S4x1x4096) S1x1x4096.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x256.size a ≤ S4x4096x256.size a
  hwx0_6 : ∀ i : grid0.Coords, EltTy.bits .f32 = 32 ∨ (Rect.block (s := S4x4096x256) S1x1024x256.size (cc0_transform_6 i) (hinb0_6 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x1x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S768x256 : Shape := ⟨2, ![768, 256]⟩
abbrev S768 : Shape := ⟨1, ![768]⟩
abbrev S4x1x4096 : Shape := ⟨3, ![4, 1, 4096]⟩
abbrev S4x4096x768 : Shape := ⟨3, ![4, 4096, 768]⟩
abbrev S1x1x768 : Shape := ⟨3, ![1, 1, 768]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S768x256, .f32⟩
  | .hbm, ⟨2, _⟩ => ⟨S768, .f32⟩
  | .hbm, ⟨3, _⟩ => ⟨S4x1x4096, .i32⟩
  | .hbm, ⟨4, _⟩ => ⟨S4x4096x768, .f32⟩
  | .hbm, ⟨5, _⟩ => ⟨S1x1x768, .f32⟩
  | .hbm, ⟨6, _⟩ => ⟨S4x4096x768, .f32⟩
  | .hbm, ⟨7, _⟩ => ⟨S4x4096x768, .f32⟩
  | .hbm, ⟨8, _⟩ => ⟨S4x4096x256, .f32⟩
  | .hbm, ⟨9, _⟩ => ⟨S4x4096x256, .f32⟩
  | .hbm, ⟨10, _⟩ => ⟨S4x4096x256, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S_, .i32⟩
  | .hbm, ⟨16, _⟩ => ⟨S4x1x4096, .i32⟩
  | .hbm, ⟨17, _⟩ => ⟨S4x1x4096, .i1⟩
  | .hbm, ⟨18, _⟩ => ⟨S_, .f32⟩
  | .hbm, ⟨19, _⟩ => ⟨S_, .f32⟩
  | .hbm, ⟨20, _⟩ => ⟨S4x4096x4096, .i1⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4x4096x768_0_1_2 : S1x1x768.BroadcastsInDim S4x4096x768 (![0, 1, 2] : Fin 3 → Fin S4x4096x768.rank)
  slices_S4x4096x768_S4x4096x256_0_0_0 : S4x4096x768.Slices ![0, 0, 0] S4x4096x256
  slices_S4x4096x768_S4x4096x256_0_0_256 : S4x4096x768.Slices ![0, 0, 256] S4x4096x256
  slices_S4x4096x768_S4x4096x256_0_0_512 : S4x4096x768.Slices ![0, 0, 512] S4x4096x256
  bcast_S_S4x4096x4096 : S_.BroadcastsInDim S4x4096x4096 (![] : Fin 0 → Fin S4x4096x4096.rank)
  bcast_S_S4x1x4096 : S_.BroadcastsInDim S4x1x4096 (![] : Fin 0 → Fin S4x1x4096.rank)
  bcast_S4x1x4096_S4x4096x4096_0_1_2 : S4x1x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S768x256_S4x4096x768_2_1_01_0_n_n_wf : DotDims.WF S4x4096x256 S768x256 S4x4096x768 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S768x256_S4x4096x768_2_1_01_0_n_n : DotDims S4x4096x256 S768x256 S4x4096x768 where
  lhsContracting := [2]
  rhsContracting := [1]
  lhsNonContracting := [0, 1]
  rhsNonContracting := [0]
  lhsBatch := []
  rhsBatch := []
  wf := dot_S4x4096x256_S768x256_S4x4096x768_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Softmax.lean ====
/-
  Softmax over a finite family of extended reals, and its streaming (tile by tile) form.

  A row of attention scores `s k` (each either a real number or `⊥`, a masked key) is turned into weights
  `exp (s k - M)`, `M` the row's maximum, and the output is the weighted mean of the value column `u k`.
  The streaming form visits the keys tile by tile and carries a running maximum `m`, a running denominator `l`
  and a running numerator `a`; each tile rescales what was carried by `exp (m - m')`, `m'` the new maximum.
  After the last tile the carried values are the closed forms (`stream_max`, `stream_den`, `stream_acc`), and the
  quotient of numerator by denominator is the weighted mean with each weight normalised first (`softmax_out`).
-/
import Idealize.ShloMosaic.PureOps.Ideal
import Mathlib.Algebra.BigOperators.Fin
import Mathlib.Algebra.BigOperators.Ring.Finset

noncomputable section

namespace Cert.Attn

open Idealize.ShloMosaic

/-- The maximum of a finite family, from `⊥`. -/
def famMax {ι : Type} [Fintype ι] (s : ι → EReal) : EReal := (Finset.univ : Finset ι).fold max ⊥ s

/-- One tile's update of the running maximum. -/
def stepM {n : ℕ} (m : EReal) (s : Fin n → EReal) : EReal := max m (famMax s)

/-- One tile's update of the running denominator: what was carried, rescaled to the new maximum, plus the tile's weights. -/
def stepL {n : ℕ} (m l : EReal) (s : Fin n → EReal) : EReal :=
  Ideal.exp (m - stepM m s) * l + ∑ r : Fin n, Ideal.exp (s r - stepM m s)

/-- One tile's update of the running numerator of one value column `u`. -/
def stepA {n : ℕ} (m a : EReal) (s u : Fin n → EReal) : EReal :=
  Ideal.exp (m - stepM m s) * a + ∑ r : Fin n, Ideal.exp (s r - stepM m s) * u r

/-- The running maximum before tile `J`. -/
def runM {n : ℕ} (s : ℕ → Fin n → EReal) : ℕ → EReal
  | 0 => ⊥
  | J + 1 => stepM (runM s J) (s J)

/-- The running denominator before tile `J`. -/
def runL {n : ℕ} (s : ℕ → Fin n → EReal) : ℕ → EReal
  | 0 => 0
  | J + 1 => stepL (runM s J) (runL s J) (s J)

/-- The running numerator before tile `J`. -/
def runA {n : ℕ} (s u : ℕ → Fin n → EReal) : ℕ → EReal
  | 0 => 0
  | J + 1 => stepA (runM s J) (runA s u J) (s J) (u J)

/-- Tile `j` of a family over 4096 keys: keys `1024 j` to `1024 j + 1023` (`⊥` past the end, never read). -/
def tile (f : Fin 4096 → EReal) (j : ℕ) (r : Fin 1024) : EReal :=
  if h : 1024 * j + r.val < 4096 then f ⟨1024 * j + r.val, h⟩ else ⊥

/-- A score is a real number or `⊥`. -/
def ScoreLike (s : Fin 4096 → EReal) : Prop := ∀ k, s k = ⊥ ∨ ∃ r : ℝ, s k = (r : EReal)

/-- Every entry is a real number. -/
def RealValued {ι : Type} (u : ι → EReal) : Prop := ∀ k, ∃ r : ℝ, u k = (r : EReal)

/-! ### The exponential of a difference -/

/-- The weight `exp (x - m)` as a real number. -/
private def wt (x m : EReal) : ℝ := (Ideal.exp (x - m)).toReal

private theorem exp_sub_eq_coe {x m : EReal} (hxm : x ≤ m) (hm : m ≠ ⊤) :
    Ideal.exp (x - m) = ((wt x m : ℝ) : EReal) := by
  unfold wt
  induction m using EReal.rec with
  | bot =>
    have : x = ⊥ := le_bot_iff.mp hxm
    subst this
    simp
  | top => exact absurd rfl hm
  | coe b =>
    induction x using EReal.rec with
    | bot => simp
    | top => simp at hxm
    | coe a =>
      rw [← EReal.coe_sub, Ideal.exp_coe, EReal.toReal_coe]

private theorem wt_nonneg (x m : EReal) : 0 ≤ wt x m := by
  unfold wt
  induction h : (x - m) using EReal.rec with
  | bot => simp
  | top => simp
  | coe a => simp [Real.exp_nonneg]

/-- Rescaling a weight from the maximum `m` to a later maximum `m'`. -/
private theorem wt_rescale {x m m' : EReal} (hxm : x ≤ m) (hmm : m ≤ m') (hm' : m' ≠ ⊤) :
    wt m m' * wt x m = wt x m' := by
  unfold wt
  induction m' using EReal.rec with
  | top => exact absurd rfl hm'
  | bot =>
    have h1 : m = ⊥ := le_bot_iff.mp hmm
    subst h1
    have h2 : x = ⊥ := le_bot_iff.mp hxm
    subst h2
    simp
  | coe c =>
    induction m using EReal.rec with
    | top => simp at hmm
    | bot =>
      have h2 : x = ⊥ := le_bot_iff.mp hxm
      subst h2
      simp
    | coe b =>
      induction x using EReal.rec with
      | top => simp at hxm
      | bot => simp
      | coe a =>
        rw [← EReal.coe_sub, ← EReal.coe_sub, ← EReal.coe_sub]
        simp only [Ideal.exp_coe, EReal.toReal_coe]
        rw [← Real.exp_add]
        congr 1
        ring

/-! ### Sums of real numbers inside the extended reals -/

private theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-! ### The maximum of a family and the running maximum -/

private theorem famMax_le_iff {ι : Type} [Fintype ι] (s : ι → EReal) (c : EReal) :
    famMax s ≤ c ↔ ∀ k, s k ≤ c := by
  unfold famMax
  rw [Finset.fold_max_le]
  simp

private theorem le_famMax {ι : Type} [Fintype ι] (s : ι → EReal) (k : ι) : s k ≤ famMax s :=
  (famMax_le_iff s (famMax s)).mp le_rfl k

private theorem famMax_ne_top {ι : Type} [Fintype ι] (s : ι → EReal) (hs : ∀ k, s k ≠ ⊤) :
    famMax s ≠ ⊤ := by
  intro h
  have h1 : (⊤ : EReal) ≤ famMax s := h ▸ le_rfl
  unfold famMax at h1
  rw [Finset.le_fold_max] at h1
  rcases h1 with h1 | ⟨k, _, hk⟩
  · simp at h1
  · exact hs k (top_le_iff.mp hk)

private theorem runM_le_iff {n : ℕ} (t : ℕ → Fin n → EReal) (J : ℕ) (c : EReal) :
    runM t J ≤ c ↔ ∀ j, j < J → ∀ r, t j r ≤ c := by
  induction J with
  | zero => simp [runM]
  | succ J ih =>
    rw [runM, stepM, max_le_iff, ih, famMax_le_iff]
    constructor
    · rintro ⟨h1, h2⟩ j hj r
      rcases Nat.lt_succ_iff_lt_or_eq.mp hj with h | h
      · exact h1 j h r
      · subst h; exact h2 r
    · intro h
      exact ⟨fun j hj r => h j (Nat.lt_succ_of_lt hj) r, fun r => h J (Nat.lt_succ_self J) r⟩

private theorem le_runM {n : ℕ} (t : ℕ → Fin n → EReal) {j J : ℕ} (hj : j < J) (r : Fin n) :
    t j r ≤ runM t J :=
  (runM_le_iff t J (runM t J)).mp le_rfl j hj r

private theorem runM_le_succ {n : ℕ} (t : ℕ → Fin n → EReal) (J : ℕ) : runM t J ≤ runM t (J + 1) := by
  rw [runM, stepM]
  exact le_max_left _ _

private theorem runM_ne_top {n : ℕ} (t : ℕ → Fin n → EReal) (ht : ∀ j r, t j r ≠ ⊤) (J : ℕ) :
    runM t J ≠ ⊤ := by
  induction J with
  | zero => simp [runM]
  | succ J ih =>
    rw [runM, stepM]
    rcases max_choice (runM t J) (famMax (t J)) with h | h
    · rw [h]; exact ih
    · rw [h]; exact famMax_ne_top _ (ht J)

/-! ### The running denominator and numerator in closed form -/

private theorem runL_eq {n : ℕ} (t : ℕ → Fin n → EReal) (ht : ∀ j r, t j r ≠ ⊤) (J : ℕ) :
    runL t J = ((∑ j ∈ Finset.range J, ∑ r : Fin n, wt (t j r) (runM t J) : ℝ) : EReal) := by
  induction J with
  | zero => simp [runL]
  | succ J ih =>
    have hM' := runM_ne_top t ht (J + 1)
    rw [runL, stepL]
    change Ideal.exp (runM t J - runM t (J + 1)) * runL t J
      + ∑ r : Fin n, Ideal.exp (t J r - runM t (J + 1)) = _
    rw [ih, exp_sub_eq_coe (runM_le_succ t J) hM']
    have h2 : ∀ r : Fin n, Ideal.exp (t J r - runM t (J + 1))
        = ((wt (t J r) (runM t (J + 1)) : ℝ) : EReal) :=
      fun r => exp_sub_eq_coe (le_runM t (Nat.lt_succ_self J) r) hM'
    simp only [h2]
    rw [← coe_sum, ← EReal.coe_mul, ← EReal.coe_add]
    congr 1
    rw [Finset.sum_range_succ, Finset.mul_sum]
    congr 1
    apply Finset.sum_congr rfl
    intro j hj
    rw [Finset.mul_sum]
    apply Finset.sum_congr rfl
    intro r _
    exact wt_rescale (le_runM t (Finset.mem_range.mp hj) r) (runM_le_succ t J) hM'

private theorem runA_eq {n : ℕ} (t v : ℕ → Fin n → EReal) (ht : ∀ j r, t j r ≠ ⊤) (N : ℕ)
    (hv : ∀ j, j < N → ∀ r, v j r = (((v j r).toReal : ℝ) : EReal)) (J : ℕ) (hJ : J ≤ N) :
    runA t v J
      = ((∑ j ∈ Finset.range J, ∑ r : Fin n, wt (t j r) (runM t J) * (v j r).toReal : ℝ) : EReal) := by
  induction J with
  | zero => simp [runA]
  | succ J ih =>
    have hM' := runM_ne_top t ht (J + 1)
    have ih' := ih (Nat.le_of_succ_le hJ)
    rw [runA, stepA]
    change Ideal.exp (runM t J - runM t (J + 1)) * runA t v J
      + ∑ r : Fin n, Ideal.exp (t J r - runM t (J + 1)) * v J r = _
    rw [ih', exp_sub_eq_coe (runM_le_succ t J) hM']
    have h2 : ∀ r : Fin n, Ideal.exp (t J r - runM t (J + 1)) * v J r
        = ((wt (t J r) (runM t (J + 1)) * (v J r).toReal : ℝ) : EReal) := by
      intro r
      rw [exp_sub_eq_coe (le_runM t (Nat.lt_succ_self J) r) hM', EReal.coe_mul, ← hv J hJ r]
    simp only [h2]
    rw [← coe_sum, ← EReal.coe_mul, ← EReal.coe_add]
    congr 1
    rw [Finset.sum_range_succ, Finset.mul_sum]
    congr 1
    apply Finset.sum_congr rfl
    intro j hj
    rw [Finset.mul_sum]
    apply Finset.sum_congr rfl
    intro r _
    rw [← mul_assoc, wt_rescale (le_runM t (Finset.mem_range.mp hj) r) (runM_le_succ t J) hM']

private theorem wt_pos {x m : EReal} (hx : x ≠ ⊥) (hxm : x ≤ m) (hm : m ≠ ⊤) : 0 < wt x m := by
  unfold wt
  induction m using EReal.rec with
  | top => exact absurd rfl hm
  | bot => exact absurd (le_bot_iff.mp hxm) hx
  | coe b =>
    induction x using EReal.rec with
    | top => simp at hxm
    | bot => exact absurd rfl hx
    | coe a =>
      rw [← EReal.coe_sub, Ideal.exp_coe, EReal.toReal_coe]
      exact Real.exp_pos _

/-! ### Tiles of a family over 4096 keys -/

private theorem tile_eq (F : Fin 4096 → EReal) {j : ℕ} (hj : j < 4) (r : Fin 1024) :
    tile F j r = F ⟨1024 * j + r.val, by have := r.isLt; omega⟩ := by
  have h : 1024 * j + r.val < 4096 := by have := r.isLt; omega
  simp only [tile, dif_pos h]

/-- The four tiles together are the whole family. -/
private theorem tile_sum (F : Fin 4096 → EReal) :
    ∑ j ∈ Finset.range 4, ∑ r : Fin 1024, tile F j r = ∑ k : Fin 4096, F k := by
  rw [Finset.sum_range, ← Fintype.sum_prod_type']
  refine Fintype.sum_equiv (finProdFinEquiv (m := 4) (n := 1024)) _ _ ?_
  rintro ⟨j, r⟩
  rw [tile_eq F j.isLt r]
  congr 1
  apply Fin.ext
  simp only [finProdFinEquiv_apply_val]
  omega

private theorem scoreLike_ne_top {s : Fin 4096 → EReal} (hs : ScoreLike s) (k : Fin 4096) : s k ≠ ⊤ := by
  rcases hs k with h | ⟨x, h⟩ <;> rw [h] <;> simp

private theorem tile_ne_top {s : Fin 4096 → EReal} (hs : ScoreLike s) (j : ℕ) (r : Fin 1024) :
    tile s j r ≠ ⊤ := by
  unfold tile
  split
  · exact scoreLike_ne_top hs _
  · simp

private theorem realValued_coe_toReal {ι : Type} {u : ι → EReal} (hu : RealValued u) (k : ι) :
    u k = (((u k).toReal : ℝ) : EReal) := by
  obtain ⟨x, hx⟩ := hu k
  rw [hx, EReal.toReal_coe]

theorem stream_max (s : Fin 4096 → EReal) : runM (tile s) 4 = famMax s := by
  apply eq_of_forall_ge_iff
  intro c
  rw [runM_le_iff, famMax_le_iff]
  constructor
  · intro h k
    have hk := k.isLt
    have hq : k.val / 1024 < 4 := by omega
    have h1 := h (k.val / 1024) hq ⟨k.val % 1024, Nat.mod_lt _ (by norm_num)⟩
    rw [tile_eq s hq] at h1
    have hk' : (⟨1024 * (k.val / 1024) + k.val % 1024, by omega⟩ : Fin 4096) = k := by
      apply Fin.ext
      simp only
      omega
    rw [hk'] at h1
    exact h1
  · intro h j hj r
    rw [tile_eq s hj r]
    exact h _

theorem stream_den (s : Fin 4096 → EReal) (hs : ScoreLike s) :
    runL (tile s) 4 = ∑ k : Fin 4096, Ideal.exp (s k - famMax s) := by
  rw [runL_eq (tile s) (tile_ne_top hs) 4, stream_max, coe_sum,
    ← tile_sum (fun k => Ideal.exp (s k - famMax s))]
  apply Finset.sum_congr rfl
  intro j hj
  have hj' := Finset.mem_range.mp hj
  rw [coe_sum]
  apply Finset.sum_congr rfl
  intro r _
  rw [tile_eq _ hj', tile_eq _ hj']
  exact (exp_sub_eq_coe (le_famMax s _) (famMax_ne_top s (scoreLike_ne_top hs))).symm

theorem stream_acc (s u : Fin 4096 → EReal) (hs : ScoreLike s) (hu : RealValued u) :
    runA (tile s) (tile u) 4 = ∑ k : Fin 4096, Ideal.exp (s k - famMax s) * u k := by
  have hv : ∀ j, j < 4 → ∀ r, tile u j r = (((tile u j r).toReal : ℝ) : EReal) := by
    intro j hj r
    rw [tile_eq u hj r]
    exact realValued_coe_toReal hu _
  rw [runA_eq (tile s) (tile u) (tile_ne_top hs) 4 hv 4 le_rfl, stream_max, coe_sum,
    ← tile_sum (fun k => Ideal.exp (s k - famMax s) * u k)]
  apply Finset.sum_congr rfl
  intro j hj
  have hj' := Finset.mem_range.mp hj
  rw [coe_sum]
  apply Finset.sum_congr rfl
  intro r _
  rw [tile_eq _ hj', tile_eq _ hj', tile_eq _ hj', EReal.coe_mul,
    ← exp_sub_eq_coe (le_famMax s _) (famMax_ne_top s (scoreLike_ne_top hs)),
    ← realValued_coe_toReal hu]

/-- With at least one key kept, the quotient of the sums is the sum of the normalised weights times the values. -/
theorem softmax_out (s u : Fin 4096 → EReal) (hs : ScoreLike s) (hu : RealValued u) (hex : ∃ k, s k ≠ ⊥) :
    Ideal.div (∑ k : Fin 4096, Ideal.exp (s k - famMax s) * u k) (∑ k : Fin 4096, Ideal.exp (s k - famMax s))
      = ∑ k : Fin 4096, Ideal.div (Ideal.exp (s k - famMax s)) (∑ k' : Fin 4096, Ideal.exp (s k' - famMax s)) * u k := by
  have hMt : famMax s ≠ ⊤ := famMax_ne_top s (scoreLike_ne_top hs)
  have hw : ∀ k, Ideal.exp (s k - famMax s) = ((wt (s k) (famMax s) : ℝ) : EReal) :=
    fun k => exp_sub_eq_coe (le_famMax s k) hMt
  have hur := realValued_coe_toReal hu
  have hL : ∑ k : Fin 4096, Ideal.exp (s k - famMax s)
      = ((∑ k : Fin 4096, wt (s k) (famMax s) : ℝ) : EReal) := by
    rw [coe_sum]
    exact Finset.sum_congr rfl (fun k _ => hw k)
  have hLpos : 0 < ∑ k : Fin 4096, wt (s k) (famMax s) := by
    obtain ⟨k0, hk0⟩ := hex
    exact Finset.sum_pos' (fun k _ => wt_nonneg _ _)
      ⟨k0, Finset.mem_univ _, wt_pos hk0 (le_famMax s k0) hMt⟩
  have hL0 : (∑ k : Fin 4096, wt (s k) (famMax s)) ≠ 0 := ne_of_gt hLpos
  have hN : ∑ k : Fin 4096, Ideal.exp (s k - famMax s) * u k
      = ((∑ k : Fin 4096, wt (s k) (famMax s) * (u k).toReal : ℝ) : EReal) := by
    rw [coe_sum]
    refine Finset.sum_congr rfl (fun k _ => ?_)
    rw [hw k, EReal.coe_mul, ← hur k]
  rw [hL, hN, Ideal.div_coe hL0]
  have hR : ∀ k, Ideal.div (Ideal.exp (s k - famMax s)) ((∑ k : Fin 4096, wt (s k) (famMax s) : ℝ) : EReal) * u k
      = ((wt (s k) (famMax s) * (1 / ∑ k : Fin 4096, wt (s k) (famMax s)) * (u k).toReal : ℝ) : EReal) := by
    intro k
    rw [Ideal.div_coe hL0, hw k, EReal.coe_mul, EReal.coe_mul, ← hur k]
  simp only [hR]
  rw [← coe_sum, ← EReal.coe_mul]
  congr 1
  rw [Finset.sum_mul]
  apply Finset.sum_congr rfl
  intro k _
  ring

end Cert.Attn

end
-- ==== Proof.AttnSpec.lean ====
/-
  The function both programs compute: single-head attention whose scores are `q · v`, with a key-padding mask.

  From `x : [4, 4096, 256]`, `W : [768, 256]`, `bias : [768]` the linear layer gives, per batch `b` and position,
  the query `q = x · W[0:256]ᵀ + bias[0:256]` and the value `v = x · W[512:768]ᵀ + bias[512:768]`.
  The score of query `i` against key `k` is `(q i · v k) / 16`, replaced by `⊥` where the mask's entry for `k` is zero;
  the weights are `exp (score - row maximum)`, and the result at feature `d` is the sum over keys of the normalised
  weight times `v k d`. Also here: the float constants both programs spell, as the extended reals they denote.
-/
import Idealize.ShloMosaic.PureOps.Ideal
import Idealize.ShloMosaic.Lib.ValueIdx
import proofs.«415784_j26860725469572_3_alg».proof.Proof.Softmax

noncomputable section

namespace Cert.Attn

open Idealize.ShloMosaic Idealize.ShloMosaic.ValueIdx

/-! ## The constants -/

/-- `0.0625`, the kernel's score scale, denotes the real `1/16`. -/
theorem ofBits_sixteenth : Ideal.ofBits .f32 0x3D800000#32 = (((1 : ℝ) / 16 : ℝ) : EReal) := by
  simp [Ideal.ofBits, Ideal.ieee, -EReal.coe_mul]; norm_num

/-- `16.0`, the reference's divisor, denotes the real `16`. -/
theorem ofBits_sixteen : Ideal.ofBits .f32 0x41800000#32 = ((16 : ℝ) : EReal) := by
  simp [Ideal.ofBits, Ideal.ieee, -EReal.coe_mul]; norm_num

/-- The pattern of `-∞` denotes `⊥`. -/
theorem ofBits_neg_inf : Ideal.ofBits .f32 0xFF800000#32 = ⊥ := by
  simp [Ideal.ofBits, Ideal.ieee]

/-- `+0.0` denotes `0`. -/
theorem ofBits_zero : Ideal.ofBits .f32 0x00000000#32 = 0 := by
  simp [Ideal.ofBits, Ideal.ieee]

/-! ## The arrays and the function -/

abbrev SX : Shape := ⟨3, ![4, 4096, 256]⟩
abbrev SW : Shape := ⟨2, ![768, 256]⟩
abbrev SB : Shape := ⟨1, ![768]⟩
abbrev SM : Shape := ⟨3, ![4, 1, 4096]⟩

variable (x : SX.Idx → EReal) (W : SW.Idx → EReal) (bias : SB.Idx → EReal) (mask : SM.Idx → BitVec 32)

/-- Row `off + d` of the linear layer applied to position `(b, i)`. -/
def projAt (off : ℕ) (hoff : off + 256 ≤ 768) (b : Fin 4) (i : Fin 4096) (d : Fin 256) : EReal :=
  (∑ e : Fin 256, x (ix3 b i e) * W (ix2 (⟨off + d.val, by have := d.isLt; omega⟩ : Fin 768) e))
    + bias (ix1 (⟨off + d.val, by have := d.isLt; omega⟩ : Fin 768))

/-- The query: rows 0 to 255 of the layer. -/
def qAt (b : Fin 4) (i : Fin 4096) (d : Fin 256) : EReal := projAt x W bias 0 (by omega) b i d

/-- The value: rows 512 to 767 of the layer. -/
def vAt (b : Fin 4) (k : Fin 4096) (d : Fin 256) : EReal := projAt x W bias 512 (by omega) b k d

/-- The score of query `i` against key `k`, before the mask: `(q i · v k) / 16`. -/
def scoreAt (b : Fin 4) (i k : Fin 4096) : EReal :=
  (∑ d : Fin 256, qAt x W bias b i d * vAt x W bias b k d) * (((1 : ℝ) / 16 : ℝ) : EReal)

/-- The masked score: `⊥` where the mask's entry for key `k` is zero. -/
def msAt (b : Fin 4) (i k : Fin 4096) : EReal :=
  if mask (ix3 b (0 : Fin 1) k) = 0#32 then ⊥ else scoreAt x W bias b i k

/-- The attention output at `(b, i, d)`: each weight normalised by the row's sum, times the value. -/
def attnAt (b : Fin 4) (i : Fin 4096) (d : Fin 256) : EReal :=
  ∑ k : Fin 4096,
    Ideal.div (Ideal.exp (msAt x W bias mask b i k - famMax (msAt x W bias mask b i)))
        (∑ k' : Fin 4096, Ideal.exp (msAt x W bias mask b i k' - famMax (msAt x W bias mask b i)))
      * vAt x W bias b k d

/-- The same with the sum taken first and normalised once: what the streaming form arrives at. -/
def attnStreamAt (b : Fin 4) (i : Fin 4096) (d : Fin 256) : EReal :=
  Ideal.div (∑ k : Fin 4096, Ideal.exp (msAt x W bias mask b i k - famMax (msAt x W bias mask b i)) * vAt x W bias b k d)
    (∑ k : Fin 4096, Ideal.exp (msAt x W bias mask b i k - famMax (msAt x W bias mask b i)))

/-- The whole result array. -/
def attnOut : SX.Idx → EReal := fun j => attnAt x W bias mask (j 0) (j 1) (j 2)

theorem attnOut_apply (b : Fin 4) (i : Fin 4096) (d : Fin 256) :
    attnOut x W bias mask (ix3 b i d) = attnAt x W bias mask b i d := rfl

/-! ## Real inputs give real intermediate values -/

private theorem exists_real_add {a b : EReal} (ha : ∃ r : ℝ, a = (r : EReal)) (hb : ∃ r : ℝ, b = (r : EReal)) :
    ∃ r : ℝ, a + b = (r : EReal) := by
  obtain ⟨r1, h1⟩ := ha
  obtain ⟨r2, h2⟩ := hb
  exact ⟨r1 + r2, by rw [h1, h2, EReal.coe_add]⟩

private theorem exists_real_mul {a b : EReal} (ha : ∃ r : ℝ, a = (r : EReal)) (hb : ∃ r : ℝ, b = (r : EReal)) :
    ∃ r : ℝ, a * b = (r : EReal) := by
  obtain ⟨r1, h1⟩ := ha
  obtain ⟨r2, h2⟩ := hb
  exact ⟨r1 * r2, by rw [h1, h2, EReal.coe_mul]⟩

/-- A finite sum of real numbers is a real number. -/
private theorem exists_real_sum {ι : Type} (S : Finset ι) (f : ι → EReal)
    (hf : ∀ i ∈ S, ∃ r : ℝ, f i = (r : EReal)) : ∃ r : ℝ, ∑ i ∈ S, f i = (r : EReal) := by
  classical
  induction S using Finset.induction_on with
  | empty => exact ⟨0, by simp⟩
  | insert a S ha ih =>
    rw [Finset.sum_insert ha]
    exact exists_real_add (hf a (Finset.mem_insert_self a S))
      (ih (fun i hi => hf i (Finset.mem_insert_of_mem hi)))

/-- Real inputs give real queries and values. -/
theorem projAt_real (hx : RealValued x) (hW : RealValued W) (hb : RealValued bias) (off : ℕ) (hoff : off + 256 ≤ 768)
    (b : Fin 4) (i : Fin 4096) (d : Fin 256) : ∃ r : ℝ, projAt x W bias off hoff b i d = (r : EReal) := by
  unfold projAt
  exact exists_real_add (exists_real_sum _ _ (fun e _ => exists_real_mul (hx _) (hW _))) (hb _)

/-- Real inputs give real scores before the mask. -/
private theorem scoreAt_real (hx : RealValued x) (hW : RealValued W) (hb : RealValued bias) (b : Fin 4) (i k : Fin 4096) :
    ∃ r : ℝ, scoreAt x W bias b i k = (r : EReal) := by
  unfold scoreAt qAt vAt
  exact exists_real_mul
    (exists_real_sum _ _ (fun d _ => exists_real_mul (projAt_real x W bias hx hW hb 0 _ b i d)
      (projAt_real x W bias hx hW hb 512 _ b k d)))
    ⟨_, rfl⟩

/-- Real inputs give scores that are real or `⊥`. -/
theorem msAt_scoreLike (hx : RealValued x) (hW : RealValued W) (hb : RealValued bias) (b : Fin 4) (i : Fin 4096) :
    ScoreLike (msAt x W bias mask b i) := by
  intro k
  unfold msAt
  split
  · exact Or.inl rfl
  · exact Or.inr (scoreAt_real x W bias hx hW hb b i k)

/-- With real inputs and a key kept in batch `b`, the streaming form is the attention output. -/
theorem attnStreamAt_eq (hx : RealValued x) (hW : RealValued W) (hb : RealValued bias)
    (b : Fin 4) (hk : ∃ k : Fin 4096, mask (ix3 b (0 : Fin 1) k) ≠ 0#32) (i : Fin 4096) (d : Fin 256) :
    attnStreamAt x W bias mask b i d = attnAt x W bias mask b i d := by
  have hu : RealValued (fun k => vAt x W bias b k d) :=
    fun k => projAt_real x W bias hx hW hb 512 _ b k d
  have hex : ∃ k, msAt x W bias mask b i k ≠ ⊥ := by
    obtain ⟨k, hk'⟩ := hk
    refine ⟨k, ?_⟩
    obtain ⟨r, hr⟩ := scoreAt_real x W bias hx hW hb b i k
    rw [msAt, if_neg hk', hr]
    exact EReal.coe_ne_bot r
  unfold attnStreamAt attnAt
  exact softmax_out (msAt x W bias mask b i) (fun k => vAt x W bias b k d)
    (msAt_scoreLike x W bias mask hx hW hb b i) hu hex

end Cert.Attn

end
-- ==== Proof.PreDecode.lean ====
/-
  What the precondition says of the inputs: every entry of `x`, `W` and `bias` is a real number, and every batch's row of
  the mask has an entry that is not zero.
-/
import proofs.«415784_j26860725469572_3_alg».proof.Pre_finite_inputs
import proofs.«415784_j26860725469572_3_alg».proof.Proof.AttnSpec
import Idealize.ShloMosaic.Lib.ReduceAll
import Idealize.ShloMosaic.Lib.ValueIdx

noncomputable section

namespace Cert.Attn

open Idealize.ShloMosaic Idealize.ShloMosaic.ValueIdx
open Cert.Pre_finite_inputs Cert.Pre_finite_inputs.Facts

/-- The pattern of `+∞` denotes `⊤`. -/
private theorem ofBits_pos_inf : Ideal.ofBits .f32 0x7F800000#32 = ⊤ := by
  simp [Ideal.ofBits, Ideal.ieee]

/-- The scalar shape has one index. -/
private theorem subsingleton_scalar : Subsingleton S_.Idx := ⟨fun _ _ => funext fun d => d.elim0⟩
attribute [local instance] subsingleton_scalar

/-- An extended real whose absolute value is below `⊤` is a real number. -/
private theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- `all (|x| < +∞)` being one says every entry of `x` is real. -/
private theorem real_of_all_lt_inf {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) :
    RealValued x := by
  intro i
  have hi := Host.reduce_andi_all _ _ hr hu ix0 e i
  refine real_of_abs_lt_top (x i) ?_
  rw [← ofBits_pos_inf]
  exact hi

/-- A left fold by `or` over one-bit words that came out 1 started at 1 or met a 1. -/
private theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by `or` from 0 that is 1 at `j` met a 1 at an operand index that reduces into `j`. -/
private theorem reduce_ori_eq_one {s t u : Shape} {axes : List (Fin s.rank)} (x : s.Idx → BitVec 1) (init : u.Idx → BitVec 1)
    (h : s.ReducesTo axes t) (hu : 0 < u.numel) (h0 : init (Shape.Idx.first hu) = 0#1)
    (j : t.Idx) (e : Host.reduce IntOp.ori x init h hu j = 1#1) : ∃ i : s.Idx, h.drop i = j ∧ x i = 1#1 := by
  rw [Host.reduce_eq_foldl, h0] at e
  rcases foldl_ori_eq_one x _ _ e with h1 | ⟨i, hi, hx⟩
  · exact absurd h1 (by decide)
  · rw [List.mem_filter] at hi
    exact ⟨i, by simpa using hi.2, hx⟩

/-- The precondition, all ones, read as facts about the four inputs. -/
theorem of_pre [Cert.Pre_finite_inputs.Facts] (x : FVec Ideal SX .f32) (W : FVec Ideal SW .f32) (bias : FVec Ideal SB .f32) (mask : IVec SM 32)
    (h : Cert.Pre_finite_inputs.fn (F := Ideal) x W bias mask = fun _ => 1#1) :
    RealValued x ∧ RealValued W ∧ RealValued bias ∧ ∀ b : Fin 4, ∃ k : Fin 4096, mask (ix3 b (0 : Fin 1) k) ≠ 0#32 := by
  have h0 := congrFun h ix0
  unfold Cert.Pre_finite_inputs.fn Cert.Pre_finite_inputs.fn_part1 at h0
  dsimp only at h0
  obtain ⟨h13, h17⟩ := IntOp.andi_eq_one.1 h0
  obtain ⟨h8, h12⟩ := IntOp.andi_eq_one.1 h13
  obtain ⟨h3, h7⟩ := IntOp.andi_eq_one.1 h8
  refine ⟨real_of_all_lt_inf x _ _ _ h3, real_of_all_lt_inf W _ _ _ h7, real_of_all_lt_inf bias _ _ _ h12, ?_⟩
  intro b
  have h16 := Host.reduce_andi_all _ _ _ _ ix0 h17 (ix2 b (0 : Fin 1))
  obtain ⟨i, hd, hx⟩ := reduce_ori_eq_one _ _ _ _ rfl _ h16
  have hne : mask i ≠ 0#32 := IntOp.cmpi_ne.1 hx
  have e0 : i 0 = b := by
    have hv := Shape.ReducesTo.drop_apply_val_of_eq reducesTo_S4x1x4096_S4x1_d2 i 0 0
    rw [hd] at hv
    exact Fin.ext hv.symm
  have ei : i = ix3 b (0 : Fin 1) (i 2) := by
    funext a
    match a with
    | ⟨0, _⟩ => exact e0
    | ⟨1, _⟩ =>
      have h1 : (i 1).val < 1 := (i 1).isLt
      exact Fin.ext (show (i 1).val = 0 by omega)
    | ⟨2, _⟩ => rfl
  exact ⟨i 2, fun hz => hne ((congrArg mask ei).trans hz)⟩

end Cert.Attn

end
-- ==== Proof.RefValue.lean ====
/-
  The reference program's result, one operation at a time, is the attention output `attnOut` of its four arguments.

  Each stage is read at explicit coordinates: the linear layer and its two slices (query and value), the scaled score,
  the masked score, the row maximum (a fold of `max` from `⊥` over the keys), the weights `exp (score - maximum)`,
  their row sum, the normalised weights, and last the sum over keys of normalised weight times value.
-/
import proofs.«415784_j26860725469572_3_alg».proof.Proof.Gen.ReferenceIdeal.Read
import proofs.«415784_j26860725469572_3_alg».proof.Proof.AttnSpec
import Idealize.ShloMosaic.Lib.ValueIdx
import Idealize.ShloMosaic.PureOps.Ideal.Laws

noncomputable section

namespace Cert.Attn

open Idealize.ShloMosaic Idealize.ShloMosaic.ValueIdx Cert.ReferenceIdeal

section Stages

variable [Cert.ReferenceIdeal.Facts] (x : FVec Ideal SX .f32) (W : FVec Ideal SW .f32) (bias : FVec Ideal SB .f32) (mask : IVec SM 32)

/-- The linear layer at position `(b, i)`, row `r`. -/
private theorem v3_at (b : Fin 4) (i : Fin 4096) (r : Fin 768) :
    Read.val_main_v3 (F := Ideal) x W bias (ix3 b i r)
      = (∑ e : Fin 256, x (ix3 b i e) * W (ix2 r e)) + bias (ix1 r) := by
  rw [Read.val_main_v3_apply, Read.val_main_v0_apply, Read.val_main_v2_apply, Read.val_main_v1_apply]
  have h1 : ∀ k : Fin 256, Read.lidx_main_v0 (ix3 b i r) k = ix3 b i k := fun k =>
    funext fun a => Fin.ext (by match a with | ⟨0, _⟩ => rfl | ⟨1, _⟩ => rfl | ⟨2, _⟩ => rfl)
  have h2 : ∀ k : Fin 256, Read.ridx_main_v0 (ix3 b i r) k = ix2 r k := fun k =>
    funext fun a => Fin.ext (by match a with | ⟨0, _⟩ => rfl | ⟨1, _⟩ => rfl)
  have h3 : Read.idx_main_v1 (Read.idx_main_v2 (ix3 b i r)) = ix1 r :=
    funext fun a => Fin.ext (by match a with | ⟨0, _⟩ => rfl)
  simp only [h1, h2, h3, Ideal.addf_def]

/-- The third slice of the layer is the value. -/
private theorem v6_at (b : Fin 4) (k : Fin 4096) (d : Fin 256) :
    Read.val_main_v6 (F := Ideal) x W bias (ix3 b k d) = vAt x W bias b k d := by
  rw [Read.val_main_v6_apply]
  have h : Read.idx_main_v6 (ix3 b k d)
      = ix3 b k (⟨512 + d.val, by have := d.isLt; omega⟩ : Fin 768) :=
    funext fun a => Fin.ext (by match a with | ⟨0, _⟩ => rfl | ⟨1, _⟩ => rfl | ⟨2, _⟩ => rfl)
  rw [h, v3_at]
  rfl

/-- The first slice of the layer is the query. -/
private theorem v4_at (b : Fin 4) (i : Fin 4096) (d : Fin 256) :
    Read.val_main_v4 (F := Ideal) x W bias (ix3 b i d) = qAt x W bias b i d := by
  rw [Read.val_main_v4_apply]
  have h : Read.idx_main_v4 (ix3 b i d)
      = ix3 b i (⟨0 + d.val, by have := d.isLt; omega⟩ : Fin 768) :=
    funext fun a => Fin.ext (by match a with | ⟨0, _⟩ => rfl | ⟨1, _⟩ => rfl | ⟨2, _⟩ => exact (Nat.zero_add _).symm)
  rw [h, v3_at]
  rfl

/-- The scaled score, before the mask. -/
private theorem v9_at (b : Fin 4) (i k : Fin 4096) :
    Read.val_main_v9 (F := Ideal) x W bias (ix3 b i k) = scoreAt x W bias b i k := by
  rw [Read.val_main_v9_apply, Read.val_main_v7_apply, Read.val_main_v8_apply, Read.val_main_cst_apply]
  have h1 : ∀ d : Fin 256, Read.lidx_main_v7 (ix3 b i k) d = ix3 b i d := fun d =>
    funext fun a => Fin.ext (by match a with | ⟨0, _⟩ => rfl | ⟨1, _⟩ => rfl | ⟨2, _⟩ => rfl)
  have h2 : ∀ d : Fin 256, Read.ridx_main_v7 (ix3 b i k) d = ix3 b k d := fun d =>
    funext fun a => Fin.ext (by match a with | ⟨0, _⟩ => rfl | ⟨1, _⟩ => rfl | ⟨2, _⟩ => rfl)
  simp only [h1, h2, v4_at, v6_at, Ideal.hostDivf_def, Ideal.ofBits_def, ofBits_sixteen]
  rw [Ideal.div_coe (by norm_num : (16 : ℝ) ≠ 0)]
  rfl

/-- The 1-bit word of an equality test is set exactly when the two words are equal. -/
private theorem cmpi_eq_one_iff {w : Nat} (a b : BitVec w) : IntOp.cmpi .eq a b = 1#1 ↔ a = b := by
  have hb : ∀ c : Bool, BitVec.ofBool c = 1#1 ↔ c = true := fun c => by cases c <;> decide
  unfold IntOp.cmpi
  exact (hb _).trans beq_iff_eq

/-- The masked score: the select between `⊥` and the scaled score. -/
private theorem v12_at (b : Fin 4) (i k : Fin 4096) :
    Read.val_main_v12 (F := Ideal) x W bias mask (ix3 b i k) = msAt x W bias mask b i k := by
  rw [Read.val_main_v12_apply, Read.val_main_call0_v1_apply, Read.val_main_v11_apply, Read.val_main_v10_apply,
    Read.val_main_c_apply, Read.val_main_call0_v2_apply, Read.val_main_call0_v0_apply, Read.val_main_cst_0_apply, v9_at]
  have h : Read.idx_main_call0_v1 (ix3 b i k) = ix3 b (0 : Fin 1) k :=
    funext fun a => Fin.ext (by match a with | ⟨0, _⟩ => rfl | ⟨1, _⟩ => rfl | ⟨2, _⟩ => rfl)
  rw [h, Ideal.ofBits_def, ofBits_neg_inf]
  unfold msAt
  by_cases hm : mask (ix3 b (0 : Fin 1) k) = 0#32
  · rw [if_pos hm, (cmpi_eq_one_iff _ _).mpr hm, select_one]
  · rw [if_neg hm, eq_zero_of_ne_one (fun h1 => hm ((cmpi_eq_one_iff _ _).mp h1)), select_zero]

/-- The row maximum: the fold of `max` from `⊥` over the keys. -/
private theorem v15_at (b : Fin 4) (i : Fin 4096) :
    Read.val_main_v15 (F := Ideal) x W bias mask (ix2 b i) = famMax (msAt x W bias mask b i) := by
  have hR : S4x4096x4096.Reduces [2] S4x4096 := by decide
  have hl : ∀ k : Fin 4096, hR.lift (ix2 b i) k = ix3 b i k := fun k =>
    funext fun a => Fin.ext (by match a with | ⟨0, _⟩ => rfl | ⟨1, _⟩ => rfl | ⟨2, _⟩ => rfl)
  have hf : (Read.val_main_v12 (F := Ideal) x W bias mask ∘ hR.lift (ix2 b i)) = msAt x W bias mask b i := by
    funext k
    show Read.val_main_v12 (F := Ideal) x W bias mask (hR.lift (ix2 b i) k) = _
    rw [hl k]
    exact v12_at x W bias mask b i k
  rw [Read.val_main_v15_apply, Read.val_main_v14_apply, Read.val_main_cst_2_apply]
  unfold Read.val_main_v13
  rw [Host.reduce_eq_fold_single (FloatOps.maximumf (F := Ideal) (φ := .f32)) _ _ Gen.reducesTo_S4x4096x4096_S4x4096_d2
    hR Gen.h_S_ (ix2 b i), hf, Read.val_main_cst_1_apply, Ideal.ofBits_def, ofBits_neg_inf, Ideal.maximumf_def,
    max_eq_right bot_le]
  rfl

/-- The score less the row maximum. -/
private theorem v18_at (b : Fin 4) (i k : Fin 4096) :
    Read.val_main_v18 (F := Ideal) x W bias mask (ix3 b i k)
      = msAt x W bias mask b i k - famMax (msAt x W bias mask b i) := by
  rw [Read.val_main_v18_apply, v12_at, Read.val_main_v17_apply, Read.val_main_v16_apply]
  have h : Read.idx_main_v16 (Read.idx_main_v17 (ix3 b i k)) = ix2 b i :=
    funext fun a => Fin.ext (by match a with | ⟨0, _⟩ => rfl | ⟨1, _⟩ => rfl)
  rw [h, v15_at, Ideal.subf_def]

/-- The weight of key `k` in row `(b, i)`. -/
private theorem v19_at (b : Fin 4) (i k : Fin 4096) :
    Read.val_main_v19 (F := Ideal) x W bias mask (ix3 b i k)
      = Ideal.exp (msAt x W bias mask b i k - famMax (msAt x W bias mask b i)) := by
  rw [Read.val_main_v19_apply, v18_at, Ideal.hostUnary_exp_def]

/-- The row's sum of weights. -/
private theorem v20_at (b : Fin 4) (i : Fin 4096) :
    Read.val_main_v20 (F := Ideal) x W bias mask (ix2 b i)
      = ∑ k' : Fin 4096, Ideal.exp (msAt x W bias mask b i k' - famMax (msAt x W bias mask b i)) := by
  rw [Read.val_main_v20_apply, Read.val_main_cst_3_apply, Ideal.ofBits_def, ofBits_zero, zero_add]
  refine Finset.sum_congr rfl fun k _ => ?_
  have h : Read.idx_main_v20 (ix2 b i) k = ix3 b i k :=
    funext fun a => Fin.ext (by match a with | ⟨0, _⟩ => rfl | ⟨1, _⟩ => rfl | ⟨2, _⟩ => rfl)
  rw [h, v19_at]

/-- The normalised weight of key `k` in row `(b, i)`. -/
private theorem v23_at (b : Fin 4) (i k : Fin 4096) :
    Read.val_main_v23 (F := Ideal) x W bias mask (ix3 b i k)
      = Ideal.div (Ideal.exp (msAt x W bias mask b i k - famMax (msAt x W bias mask b i)))
          (∑ k' : Fin 4096, Ideal.exp (msAt x W bias mask b i k' - famMax (msAt x W bias mask b i))) := by
  rw [Read.val_main_v23_apply, v19_at, Read.val_main_v22_apply, Read.val_main_v21_apply]
  have h : Read.idx_main_v21 (Read.idx_main_v22 (ix3 b i k)) = ix2 b i :=
    funext fun a => Fin.ext (by match a with | ⟨0, _⟩ => rfl | ⟨1, _⟩ => rfl)
  rw [h, v20_at, Ideal.hostDivf_def]

end Stages

/-- The reference's last stage is `attnOut`. -/
theorem ref_is_attn [Cert.ReferenceIdeal.Facts] (x : FVec Ideal SX .f32) (W : FVec Ideal SW .f32) (bias : FVec Ideal SB .f32) (mask : IVec SM 32) :
    Cert.ReferenceIdeal.Read.val_main_v24 (F := Ideal) x W bias mask = attnOut x W bias mask := by
  funext j
  obtain ⟨b, i, d, rfl⟩ : ∃ (b : Fin 4) (i : Fin 4096) (d : Fin 256), j = ix3 b i d := ⟨j 0, j 1, j 2, eq_ix3 j⟩
  rw [attnOut_apply]
  unfold attnAt
  rw [Read.val_main_v24_apply]
  refine Finset.sum_congr rfl fun k _ => ?_
  have hl : Read.lidx_main_v24 (ix3 b i d) k = ix3 b i k :=
    funext fun a => Fin.ext (by match a with | ⟨0, _⟩ => rfl | ⟨1, _⟩ => rfl | ⟨2, _⟩ => rfl)
  have hr : Read.ridx_main_v24 (ix3 b i d) k = ix3 b k d :=
    funext fun a => Fin.ext (by match a with | ⟨0, _⟩ => rfl | ⟨1, _⟩ => rfl | ⟨2, _⟩ => rfl)
  rw [hl, hr, v23_at, v6_at]

end Cert.Attn

end
-- ==== Proof.KernelPay.lean ====
/-
  The kernel body's arithmetic read at an index, at the extended reals.

  The body computes, per query tile: the value projection of the whole sequence and the additive mask row (once per batch);
  the query projection of the tile; and per key tile the masked scores, the new running maximum, the rescaled running
  denominator and numerator; at the end the quotient. Each is read here at one entry as the textbook expression:
  the products as sums over the contracted axis, the row maximum as a fold of `max`, the row sum as a sum,
  and the three carried values as the streaming softmax's step functions.
-/
import proofs.«415784_j26860725469572_3_alg».proof.Proof.Gen.KernelIdeal.Skeleton
import proofs.«415784_j26860725469572_3_alg».proof.Proof.AttnSpec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

noncomputable section

namespace Cert.Attn

open Idealize.ShloMosaic Idealize.ShloMosaic.ValueIdx Cert.KernelIdeal Cert.KernelIdeal.Gen

variable [Cert.KernelIdeal.Facts]

/-! ### Layout operations at explicit coordinates -/

/-- An `[a, 1]` column broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
private theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-! ### A row reduction at explicit coordinates -/

/-- The index a row reduction reads: row `i`, lane `r`. -/
private theorem lift_row (h : S1024x1024.Reduces [1] S1024) (i : Fin 1024) (r : Fin 1024) :
    h.lift (ix1 i) r = ix2 i r := by
  funext c
  match c with
  | ⟨0, _⟩ => exact Fin.ext rfl
  | ⟨1, _⟩ => exact Fin.ext rfl

/-- A row sum read at row `i`. -/
private theorem rowSum_at (src : FVec Ideal S1024x1024 .f32) (h : S1024x1024.Reduces [1] S1024) (hφ : FKind.Formats .f32)
    (hacc : (0x00000000#32 : BitVec 32) = FKind.add.neutral .f32 hφ) (i : Fin 1024) :
    multiReduction .add [1] S1024 src 0x00000000#32 h hφ hacc (ix1 i) = ∑ r : Fin 1024, src (ix2 i r) := by
  refine (Ideal.multiReduction_add_single src 0x00000000#32 h hφ hacc (ix1 i)).trans ?_
  exact Finset.sum_congr rfl fun r _ => congrArg src (lift_row h i r)

/-- A row maximum read at row `i`: the maximum of the row's entries, from `⊥`. -/
private theorem rowMax_at (src : FVec Ideal S1024x1024 .f32) (h : S1024x1024.Reduces [1] S1024) (hφ : FKind.Formats .f32)
    (hacc : (0xFF800000#32 : BitVec 32) = FKind.maximumf.neutral .f32 hφ) (i : Fin 1024) :
    multiReduction .maximumf [1] S1024 src 0xFF800000#32 h hφ hacc (ix1 i) = famMax fun r : Fin 1024 => src (ix2 i r) := by
  refine (Ideal.multiReduction_maximumf_single src 0xFF800000#32 h hφ hacc (ix1 i)).trans ?_
  unfold famMax
  rw [Ideal.ofBits_def, ofBits_neg_inf]
  exact congrArg (Finset.univ.fold max ⊥) (funext fun r => congrArg src (lift_row h i r))

/-! ### The four products at explicit coordinates -/

private theorem lhs_v_0 (i : S4096x256.Idx) (q : dot_S4096x256_S256x256_S4096x256_1_1_0_0_n_n.contr.Idx) :
    (dot_S4096x256_S256x256_S4096x256_1_1_0_0_n_n.lhsIdx i q 0).val = (i 0).val := by
  unfold DotDims.lhsIdx
  rw [dif_neg (show ¬(0 : Fin S4096x256.rank) ∈ dot_S4096x256_S256x256_S4096x256_1_1_0_0_n_n.lhsBatch by decide), dif_pos (show (0 : Fin S4096x256.rank) ∈ dot_S4096x256_S256x256_S4096x256_1_1_0_0_n_n.lhsNonContracting by decide)]
  rfl
private theorem lhs_v_1 (i : S4096x256.Idx) (q : dot_S4096x256_S256x256_S4096x256_1_1_0_0_n_n.contr.Idx) :
    (dot_S4096x256_S256x256_S4096x256_1_1_0_0_n_n.lhsIdx i q 1).val = (q ⟨0, by decide⟩).val :=
  dot_S4096x256_S256x256_S4096x256_1_1_0_0_n_n.lhsIdx_val_of_single rfl i q
private theorem rhs_v_0 (i : S4096x256.Idx) (q : dot_S4096x256_S256x256_S4096x256_1_1_0_0_n_n.contr.Idx) :
    (dot_S4096x256_S256x256_S4096x256_1_1_0_0_n_n.rhsIdx i q 0).val = (i 1).val := by
  unfold DotDims.rhsIdx
  rw [dif_neg (show ¬(0 : Fin S256x256.rank) ∈ dot_S4096x256_S256x256_S4096x256_1_1_0_0_n_n.rhsBatch by decide), dif_pos (show (0 : Fin S256x256.rank) ∈ dot_S4096x256_S256x256_S4096x256_1_1_0_0_n_n.rhsNonContracting by decide)]
  rfl
private theorem rhs_v_1 (i : S4096x256.Idx) (q : dot_S4096x256_S256x256_S4096x256_1_1_0_0_n_n.contr.Idx) :
    (dot_S4096x256_S256x256_S4096x256_1_1_0_0_n_n.rhsIdx i q 1).val = (q ⟨0, by decide⟩).val :=
  dot_S4096x256_S256x256_S4096x256_1_1_0_0_n_n.rhsIdx_val_of_single rfl i q
/-- The value projection's product: row `p` of the left operand against row `q` of the right. -/
private theorem matmul_v_at {φ₁ φ₂ : FTy} (a : FVec Ideal S4096x256 φ₁) (b : FVec Ideal S256x256 φ₂) (p : Fin 4096) (q : Fin 256) :
    matmul dot_S4096x256_S256x256_S4096x256_1_1_0_0_n_n none a b (constant (F := Ideal) S4096x256 .f32 0x00000000#32) (ix2 p q)
      = ∑ e : Fin 256, a (ix2 p e) * b (ix2 q e) := by
  refine (Ideal.matmul_constant_zero_apply dot_S4096x256_S256x256_S4096x256_1_1_0_0_n_n none a b (ix2 p q)).trans ?_
  rw [← Equiv.sum_comp (contrEquiv1 dot_S4096x256_S256x256_S4096x256_1_1_0_0_n_n 256 rfl rfl).symm]
  refine Finset.sum_congr rfl fun e _ => ?_
  have hk := contrEquiv1_symm_val dot_S4096x256_S256x256_S4096x256_1_1_0_0_n_n 256 rfl rfl e
  have el : dot_S4096x256_S256x256_S4096x256_1_1_0_0_n_n.lhsIdx (ix2 p q) ((contrEquiv1 dot_S4096x256_S256x256_S4096x256_1_1_0_0_n_n 256 rfl rfl).symm e) = ix2 p e := funext fun ax => Fin.ext (by
    match ax with
    | ⟨0, _⟩ => exact lhs_v_0 _ _
    | ⟨1, _⟩ => exact (lhs_v_1 _ _).trans hk)
  have er : dot_S4096x256_S256x256_S4096x256_1_1_0_0_n_n.rhsIdx (ix2 p q) ((contrEquiv1 dot_S4096x256_S256x256_S4096x256_1_1_0_0_n_n 256 rfl rfl).symm e) = ix2 q e := funext fun ax => Fin.ext (by
    match ax with
    | ⟨0, _⟩ => exact rhs_v_0 _ _
    | ⟨1, _⟩ => exact (rhs_v_1 _ _).trans hk)
  rw [el, er]

private theorem lhs_q_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
private theorem lhs_q_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
private theorem rhs_q_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
private theorem rhs_q_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q
/-- The query projection's product: row `p` of the left operand against row `q` of the right. -/
private theorem matmul_q_at {φ₁ φ₂ : FTy} (a : FVec Ideal S1024x256 φ₁) (b : FVec Ideal S256x256 φ₂) (p : Fin 1024) (q : Fin 256) :
    matmul dot_S1024x256_S256x256_S1024x256_1_1_0_0_n_n none a b (constant (F := Ideal) S1024x256 .f32 0x00000000#32) (ix2 p q)
      = ∑ e : Fin 256, a (ix2 p e) * b (ix2 q e) := by
  refine (Ideal.matmul_constant_zero_apply dot_S1024x256_S256x256_S1024x256_1_1_0_0_n_n none a b (ix2 p q)).trans ?_
  rw [← Equiv.sum_comp (contrEquiv1 dot_S1024x256_S256x256_S1024x256_1_1_0_0_n_n 256 rfl rfl).symm]
  refine Finset.sum_congr rfl fun e _ => ?_
  have hk := contrEquiv1_symm_val dot_S1024x256_S256x256_S1024x256_1_1_0_0_n_n 256 rfl rfl e
  have el : dot_S1024x256_S256x256_S1024x256_1_1_0_0_n_n.lhsIdx (ix2 p q) ((contrEquiv1 dot_S1024x256_S256x256_S1024x256_1_1_0_0_n_n 256 rfl rfl).symm e) = ix2 p e := funext fun ax => Fin.ext (by
    match ax with
    | ⟨0, _⟩ => exact lhs_q_0 _ _
    | ⟨1, _⟩ => exact (lhs_q_1 _ _).trans hk)
  have er : dot_S1024x256_S256x256_S1024x256_1_1_0_0_n_n.rhsIdx (ix2 p q) ((contrEquiv1 dot_S1024x256_S256x256_S1024x256_1_1_0_0_n_n 256 rfl rfl).symm e) = ix2 q e := funext fun ax => Fin.ext (by
    match ax with
    | ⟨0, _⟩ => exact rhs_q_0 _ _
    | ⟨1, _⟩ => exact (rhs_q_1 _ _).trans hk)
  rw [el, er]

private theorem lhs_qk_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
private theorem lhs_qk_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
private theorem rhs_qk_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
private theorem rhs_qk_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q
/-- The scores' product: query row `p` against key row `q`. -/
private theorem matmul_qk_at {φ₁ φ₂ : FTy} (a : FVec Ideal S1024x256 φ₁) (b : FVec Ideal S1024x256 φ₂) (p : Fin 1024) (q : Fin 1024) :
    matmul dot_S1024x256_S1024x256_S1024x1024_1_1_0_0_n_n none a b (constant (F := Ideal) S1024x1024 .f32 0x00000000#32) (ix2 p q)
      = ∑ e : Fin 256, a (ix2 p e) * b (ix2 q e) := by
  refine (Ideal.matmul_constant_zero_apply dot_S1024x256_S1024x256_S1024x1024_1_1_0_0_n_n none a b (ix2 p q)).trans ?_
  rw [← Equiv.sum_comp (contrEquiv1 dot_S1024x256_S1024x256_S1024x1024_1_1_0_0_n_n 256 rfl rfl).symm]
  refine Finset.sum_congr rfl fun e _ => ?_
  have hk := contrEquiv1_symm_val dot_S1024x256_S1024x256_S1024x1024_1_1_0_0_n_n 256 rfl rfl e
  have el : dot_S1024x256_S1024x256_S1024x1024_1_1_0_0_n_n.lhsIdx (ix2 p q) ((contrEquiv1 dot_S1024x256_S1024x256_S1024x1024_1_1_0_0_n_n 256 rfl rfl).symm e) = ix2 p e := funext fun ax => Fin.ext (by
    match ax with
    | ⟨0, _⟩ => exact lhs_qk_0 _ _
    | ⟨1, _⟩ => exact (lhs_qk_1 _ _).trans hk)
  have er : dot_S1024x256_S1024x256_S1024x1024_1_1_0_0_n_n.rhsIdx (ix2 p q) ((contrEquiv1 dot_S1024x256_S1024x256_S1024x1024_1_1_0_0_n_n 256 rfl rfl).symm e) = ix2 q e := funext fun ax => Fin.ext (by
    match ax with
    | ⟨0, _⟩ => exact rhs_qk_0 _ _
    | ⟨1, _⟩ => exact (rhs_qk_1 _ _).trans hk)
  rw [el, er]

private theorem lhs_pv_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
private theorem lhs_pv_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
private theorem rhs_pv_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl
private theorem rhs_pv_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
/-- The weights' product with the values: row `p` of the weights against column `q` of the values. -/
private theorem matmul_pv_at {φ₁ φ₂ : FTy} (a : FVec Ideal S1024x1024 φ₁) (b : FVec Ideal S1024x256 φ₂) (p : Fin 1024) (q : Fin 256) :
    matmul dot_S1024x1024_S1024x256_S1024x256_1_0_0_1_n_n none a b (constant (F := Ideal) S1024x256 .f32 0x00000000#32) (ix2 p q)
      = ∑ e : Fin 1024, a (ix2 p e) * b (ix2 e q) := by
  refine (Ideal.matmul_constant_zero_apply dot_S1024x1024_S1024x256_S1024x256_1_0_0_1_n_n none a b (ix2 p q)).trans ?_
  rw [← Equiv.sum_comp (contrEquiv1 dot_S1024x1024_S1024x256_S1024x256_1_0_0_1_n_n 1024 rfl rfl).symm]
  refine Finset.sum_congr rfl fun e _ => ?_
  have hk := contrEquiv1_symm_val dot_S1024x1024_S1024x256_S1024x256_1_0_0_1_n_n 1024 rfl rfl e
  have el : dot_S1024x1024_S1024x256_S1024x256_1_0_0_1_n_n.lhsIdx (ix2 p q) ((contrEquiv1 dot_S1024x1024_S1024x256_S1024x256_1_0_0_1_n_n 1024 rfl rfl).symm e) = ix2 p e := funext fun ax => Fin.ext (by
    match ax with
    | ⟨0, _⟩ => exact lhs_pv_0 _ _
    | ⟨1, _⟩ => exact (lhs_pv_1 _ _).trans hk)
  have er : dot_S1024x1024_S1024x256_S1024x256_1_0_0_1_n_n.rhsIdx (ix2 p q) ((contrEquiv1 dot_S1024x1024_S1024x256_S1024x256_1_0_0_1_n_n 1024 rfl rfl).symm e) = ix2 e q := funext fun ax => Fin.ext (by
    match ax with
    | ⟨0, _⟩ => exact (rhs_pv_0 _ _).trans hk
    | ⟨1, _⟩ => exact rhs_pv_1 _ _)
  rw [el, er]

/-! ### The payloads -/

/-- The mask fill the kernel names denotes `⊥`. -/
theorem neg_big_eq : Named.named (F := Ideal) Cert.KernelIdeal.κ "neg_big" (φ := .f32) 0xFF333332#32 = (⊥ : EReal) := by
  exact IdealRules.named_const.ideal_named_scalar _ _ _ _ rfl

/-- The value projection stored in the scratch: row `k`, feature `d`. -/
theorem pay1_at (v28 : Vec Ideal S1x4096x256 .f32) (v31 : Vec Ideal S256x256 .f32) (v35 : Vec Ideal S1x256 .f32) (k : Fin 4096) (d : Fin 256) :
    k0_pay1 (F := Ideal) v28 v31 v35 (ix2 k d)
      = (∑ e : Fin 256, v28 (ix3 (0 : Fin 1) k e) * v31 (ix2 d e)) + v35 (ix2 (0 : Fin 1) d) := by
  unfold k0_pay1
  refine (congrFun (shapeCast_self _ _) _).trans ?_
  refine congrArg₂ (· + ·) ((matmul_v_at _ _ k d).trans (Finset.sum_congr rfl fun e _ => ?_)) ?_
  · exact congrArg₂ (· * ·) (shapeCast_1ab_ab_apply v28 _ k e) (congrFun (shapeCast_self v31 _) (ix2 d e))
  · exact (broadcastTo_1b_ab_apply _ _ k d).trans (congrFun (shapeCast_self v35 _) _)

/-- The additive mask row: `⊥` where the mask's entry is zero, else `0`. -/
theorem pay2_at (v43 : Vec Ideal S1x1x4096 .i32) (k : Fin 4096) :
    k0_pay2 (F := Ideal) v43 (ix2 (0 : Fin 1) k) = if v43 (ix3 (0 : Fin 1) (0 : Fin 1) k) = 0#32 then (⊥ : EReal) else 0 := by
  unfold k0_pay2
  refine (congrFun (shapeCast_self _ _) _).trans ?_
  refine (shapeCast_a_1a_apply _ _ (0 : Fin 1) k).trans ?_
  rw [select_apply, broadcast_apply, broadcast_apply]
  have hc : cmpi .eq (shapeCast S4096 v43 shapeCasts_S1x1x4096_S4096) (broadcast S4096 0#32) (ix1 k)
      = IntOp.cmpi .eq (v43 (ix3 (0 : Fin 1) (0 : Fin 1) k)) 0#32 :=
    congrArg (fun w => IntOp.cmpi .eq w 0#32) (shapeCast_11a_a_apply v43 _ k)
  rw [hc]
  by_cases h : v43 (ix3 (0 : Fin 1) (0 : Fin 1) k) = 0#32
  · rw [if_pos h, StableHlo.Predicate.cmpi_eq_iff.mpr h, select_one]
    exact neg_big_eq
  · rw [if_neg h, eq_zero_of_ne_one (fun h1 => h (StableHlo.Predicate.cmpi_eq_iff.mp h1)), select_zero]
    exact ofBits_zero

/-- The loop's initial running maximum, denominator and numerator. -/
theorem pay3_at (i : Fin 1024) : k0_pay3 (F := Ideal) (ix2 i (0 : Fin 1)) = (⊥ : EReal) := by
  unfold k0_pay3
  exact ofBits_neg_inf
theorem pay4_at (i : Fin 1024) : k0_pay4 (F := Ideal) (ix2 i (0 : Fin 1)) = (0 : EReal) := by
  unfold k0_pay4
  exact ofBits_zero
theorem pay5_at (i : Fin 1024) (d : Fin 256) : k0_pay5 (F := Ideal) (ix2 i d) = (0 : EReal) := by
  unfold k0_pay5
  exact ofBits_zero

/-- The masked score of the tile's query row `i` against the key tile's row `r`. -/
theorem pay6_at (v6 : Vec Ideal S1x1024x256 .f32) (v9 : Vec Ideal S256x256 .f32) (v13 : Vec Ideal S1x256 .f32)
    (v31 : Vec Ideal S1024x256 .bf16) (v33 : Vec Ideal S1x1024 .f32) (i r : Fin 1024) :
    k0_pay6 (F := Ideal) v6 v9 v13 v31 v33 (ix2 i r)
      = (∑ d : Fin 256, ((∑ e : Fin 256, v6 (ix3 (0 : Fin 1) i e) * v9 (ix2 d e)) + v13 (ix2 (0 : Fin 1) d)) * v31 (ix2 r d))
          * (((1 : ℝ) / 16 : ℝ) : EReal)
        + v33 (ix2 (0 : Fin 1) r) := by
  unfold k0_pay6
  refine congrArg₂ (· + ·) (congrArg₂ (· * ·) ((matmul_qk_at (φ₂ := .bf16) _ _ i r).trans (Finset.sum_congr rfl fun d _ =>
    congrArg (· * v31 (ix2 r d)) ?_)) ofBits_sixteenth) (broadcastTo_1b_ab_apply v33 _ i r)
  refine congrArg₂ (· + ·) ((matmul_q_at _ _ i d).trans (Finset.sum_congr rfl fun e _ => ?_)) ?_
  · exact congrArg₂ (· * ·) (shapeCast_1ab_ab_apply v6 _ i e) (congrFun (shapeCast_self v9 _) (ix2 d e))
  · exact (broadcastTo_1b_ab_apply _ _ i d).trans (congrFun (shapeCast_self v13 _) _)

/-- The new running maximum of row `i`. -/
theorem pay7_at (v6 : Vec Ideal S1x1024x256 .f32) (v9 : Vec Ideal S256x256 .f32) (v13 : Vec Ideal S1x256 .f32)
    (arg12 : FVec Ideal S1024x1 .f32) (v31 : Vec Ideal S1024x256 .bf16) (v33 : Vec Ideal S1x1024 .f32) (i : Fin 1024) :
    k0_pay7 (F := Ideal) v6 v9 v13 arg12 v31 v33 (ix2 i (0 : Fin 1))
      = stepM (arg12 (ix2 i (0 : Fin 1))) (fun r : Fin 1024 => k0_pay6 (F := Ideal) v6 v9 v13 v31 v33 (ix2 i r)) := by
  unfold k0_pay7 stepM
  refine congrArg (max (arg12 (ix2 i (0 : Fin 1)))) ?_
  refine (shapeCast_a_a1_apply _ _ i (0 : Fin 1)).trans ?_
  exact rowMax_at _ _ _ _ i

/-- The rescaling factor of what row `i` carried: `exp` of the old maximum minus the new. -/
private theorem pay8_at (v6 : Vec Ideal S1x1024x256 .f32) (v9 : Vec Ideal S256x256 .f32) (v13 : Vec Ideal S1x256 .f32)
    (arg12 : FVec Ideal S1024x1 .f32) (v31 : Vec Ideal S1024x256 .bf16) (v33 : Vec Ideal S1x1024 .f32) (i : Fin 1024) :
    k0_pay8 (F := Ideal) v6 v9 v13 arg12 v31 v33 (ix2 i (0 : Fin 1))
      = Ideal.exp (arg12 (ix2 i (0 : Fin 1))
          - stepM (arg12 (ix2 i (0 : Fin 1))) (fun r : Fin 1024 => k0_pay6 (F := Ideal) v6 v9 v13 v31 v33 (ix2 i r))) := by
  unfold k0_pay8
  exact congrArg (fun m => Ideal.exp (arg12 (ix2 i (0 : Fin 1)) - m)) (pay7_at v6 v9 v13 arg12 v31 v33 i)

/-- The tile's weight of row `i` at key row `r`: `exp` of the score minus the new maximum. -/
private theorem pay9_at (v6 : Vec Ideal S1x1024x256 .f32) (v9 : Vec Ideal S256x256 .f32) (v13 : Vec Ideal S1x256 .f32)
    (arg12 : FVec Ideal S1024x1 .f32) (v31 : Vec Ideal S1024x256 .bf16) (v33 : Vec Ideal S1x1024 .f32) (i r : Fin 1024) :
    k0_pay9 (F := Ideal) v6 v9 v13 arg12 v31 v33 (ix2 i r)
      = Ideal.exp (k0_pay6 (F := Ideal) v6 v9 v13 v31 v33 (ix2 i r)
          - stepM (arg12 (ix2 i (0 : Fin 1))) (fun r : Fin 1024 => k0_pay6 (F := Ideal) v6 v9 v13 v31 v33 (ix2 i r))) := by
  unfold k0_pay9
  exact congrArg (fun m => Ideal.exp (k0_pay6 (F := Ideal) v6 v9 v13 v31 v33 (ix2 i r) - m))
    ((broadcastTo_a1_ab_apply _ _ i r).trans (pay7_at v6 v9 v13 arg12 v31 v33 i))

/-- The new running denominator of row `i`. -/
theorem pay10_at (v6 : Vec Ideal S1x1024x256 .f32) (v9 : Vec Ideal S256x256 .f32) (v13 : Vec Ideal S1x256 .f32)
    (arg12 arg13 : FVec Ideal S1024x1 .f32) (v31 : Vec Ideal S1024x256 .bf16) (v33 : Vec Ideal S1x1024 .f32) (i : Fin 1024) :
    k0_pay10 (F := Ideal) v6 v9 v13 arg12 arg13 v31 v33 (ix2 i (0 : Fin 1))
      = stepL (arg12 (ix2 i (0 : Fin 1))) (arg13 (ix2 i (0 : Fin 1)))
          (fun r : Fin 1024 => k0_pay6 (F := Ideal) v6 v9 v13 v31 v33 (ix2 i r)) := by
  unfold k0_pay10 stepL
  refine congrArg₂ (· + ·) (congrArg (· * arg13 (ix2 i (0 : Fin 1))) (pay8_at v6 v9 v13 arg12 v31 v33 i)) ?_
  refine (shapeCast_a_a1_apply _ _ i (0 : Fin 1)).trans ?_
  refine (rowSum_at _ _ _ _ i).trans ?_
  exact Finset.sum_congr rfl fun r _ => pay9_at v6 v9 v13 arg12 v31 v33 i r

/-- The new running numerator of row `i`, feature `d`. -/
theorem pay11_at (v6 : Vec Ideal S1x1024x256 .f32) (v9 : Vec Ideal S256x256 .f32) (v13 : Vec Ideal S1x256 .f32)
    (arg12 : FVec Ideal S1024x1 .f32) (arg14 : FVec Ideal S1024x256 .f32) (v31 : Vec Ideal S1024x256 .bf16) (v33 : Vec Ideal S1x1024 .f32)
    (i : Fin 1024) (d : Fin 256) :
    k0_pay11 (F := Ideal) v6 v9 v13 arg12 arg14 v31 v33 (ix2 i d)
      = stepA (arg12 (ix2 i (0 : Fin 1))) (arg14 (ix2 i d))
          (fun r : Fin 1024 => k0_pay6 (F := Ideal) v6 v9 v13 v31 v33 (ix2 i r)) (fun r : Fin 1024 => v31 (ix2 r d)) := by
  unfold k0_pay11 stepA
  refine congrArg₂ (· + ·) (congrArg (· * arg14 (ix2 i d))
    ((broadcastTo_a1_ab_apply _ _ i d).trans (pay8_at v6 v9 v13 arg12 v31 v33 i))) ?_
  refine (matmul_pv_at (φ₂ := .bf16) _ _ i d).trans ?_
  exact Finset.sum_congr rfl fun r _ => congrArg (· * v31 (ix2 r d)) (pay9_at v6 v9 v13 arg12 v31 v33 i r)

/-- The stored quotient: numerator over denominator. -/
theorem pay12_at (v22_1 : FVec Ideal S1024x1 .f32) (v22_2 : FVec Ideal S1024x256 .f32) (i : Fin 1024) (d : Fin 256) :
    k0_pay12 (F := Ideal) v22_1 v22_2 (ix3 (0 : Fin 1) i d) = Ideal.div (v22_2 (ix2 i d)) (v22_1 (ix2 i (0 : Fin 1))) := by
  unfold k0_pay12
  refine (shapeCast_ab_1ab_apply _ _ (0 : Fin 1) i d).trans ?_
  exact congrArg (Ideal.div (v22_2 (ix2 i d))) (broadcastTo_a1_ab_apply v22_1 _ i d)

end Cert.Attn

end
-- ==== Proof.KernelTrip.lean ====
/-
  The kernel body's run, read as values.

  One trip of the key loop loads one tile of the value scratch and one slice of the mask scratch and yields the new
  running maximum, denominator and numerator (`tripR_eq`); so, row by row, the carried values before trip `n` are the
  streaming softmax's `runM`, `runL`, `runA` over the tiles' masked scores (`st_rows`). What the body leaves in the output
  block is the quotient of the last numerator by the last denominator (`out_A_eq`, `out_B_eq`), and at a batch's first
  query tile it leaves the value projection and the additive mask row in the two scratch buffers (`sout_A_0_eq`,
  `sout_A_1_eq`).
-/
import proofs.«415784_j26860725469572_3_alg».proof.Proof.Gen.KernelIdeal.Frame
import proofs.«415784_j26860725469572_3_alg».proof.Proof.KernelPay
import Idealize.ShloMosaic.Lib.WholeRead

set_option maxRecDepth 16384

noncomputable section

namespace Cert.Attn

open Idealize.ShloMosaic Idealize.ShloMosaic.TcCoe Idealize.ShloMosaic.ValueIdx Idealize.ShloMosaic.Tactic
open Idealize.SL Idealize.SL.Sem
open Cert.KernelIdeal Cert.KernelIdeal.Gen

/-- The three carried values: running maximum, denominator (one column each) and numerator. -/
abbrev T3 : Type := FVec Ideal S1024x1 .f32 × FVec Ideal S1024x1 .f32 × FVec Ideal S1024x256 .f32

theorem hz3 : (![0, 0, 0] : Fin 3 → Nat) = fun _ => 0 := funext fun a => by fin_cases a <;> rfl
theorem hz2 : (![0, 0] : Fin 2 → Nat) = fun _ => 0 := funext fun a => by fin_cases a <;> rfl

section Trip

variable (𝒱 : Variants) (bd : Option 𝒱.V) (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1x4096 .i32) (harg7 : arg7.IsWhole) (arg8 : Memref sig .tc .vmem S1x1024x256 .f32) (harg8 : arg8.IsWhole) (arg9 : Memref sig .tc .vmem S4096x256 .bf16) (harg9 : arg9.IsWhole) (arg10 : Memref sig .tc .vmem S1x4096 .f32) (harg10 : arg10.IsWhole)
  (v6 : Vec Ideal S1x1024x256 .f32) (v9 : Vec Ideal S256x256 .f32) (v13 : Vec Ideal S1x256 .f32)
  (X9 : BufTy.Contents (Elt Ideal) arg9.view.ty) (X10 : BufTy.Contents (Elt Ideal) arg10.view.ty)

/-- The tile of the value scratch that trip `k` loads. -/
def ld9 (k : Fin k0_t1_loop.trips) : Vec Ideal S1024x256 .bf16 :=
  View.readAt (Elt Ideal) arg9.view (Rect.unit (s := S4096x256) (k0_off2 k) S1024x256.size (k0_off2_inb k)).toLoadRect X9

/-- The slice of the mask scratch that trip `k` loads. -/
def ld10 (k : Fin k0_t1_loop.trips) : Vec Ideal S1x1024 .f32 :=
  View.readAt (Elt Ideal) arg10.view (Rect.unit (s := S1x4096) (k0_off3 k) S1x1024.size (k0_off3_inb k)).toLoadRect X10

/-- What trip `k` yields from the carried values: the three payloads at the trip's two loads. -/
theorem tripR_eq (k : Fin k0_t1_loop.trips) (acc : T3) :
    tripR_k0_t1 (F := Ideal) 𝒱 c bd i arg2 harg2 arg3 harg3 arg4 harg4 arg5 harg5 arg6 harg6 arg7 harg7 arg8 harg8 arg9 harg9 arg10 harg10 v6 v9 v13 X9 X10 k acc
      = (k0_pay7 v6 v9 v13 acc.1 (ld9 arg9 X9 k) (ld10 arg10 X10 k),
         k0_pay10 v6 v9 v13 acc.1 acc.2.1 (ld9 arg9 X9 k) (ld10 arg10 X10 k),
         k0_pay11 v6 v9 v13 acc.1 acc.2.2 (ld9 arg9 X9 k) (ld10 arg10 X10 k)) := by
  unfold tripR_k0_t1 trip_k0_t1
  rfl

/-- Tile `j`'s masked scores of query row `p` (`⊥` past the last trip, never read). -/
def rowS (p : Fin 1024) (j : ℕ) (r : Fin 1024) : EReal :=
  if h : j < k0_t1_loop.trips then k0_pay6 (F := Ideal) v6 v9 v13 (ld9 arg9 X9 ⟨j, h⟩) (ld10 arg10 X10 ⟨j, h⟩) (ix2 p r) else ⊥

/-- Tile `j`'s value column `d`. -/
def colU (d : Fin 256) (j : ℕ) (r : Fin 1024) : EReal :=
  if h : j < k0_t1_loop.trips then ld9 arg9 X9 ⟨j, h⟩ (ix2 r d) else ⊥

/-- Row by row, the carried values before trip `n` are the streaming recursion over the tiles. -/
theorem st_rows (n : ℕ) (hn : n ≤ k0_t1_loop.trips) (p : Fin 1024) (d : Fin 256) :
    (st_k0_t1 (F := Ideal) 𝒱 c bd i arg2 harg2 arg3 harg3 arg4 harg4 arg5 harg5 arg6 harg6 arg7 harg7 arg8 harg8 arg9 harg9 arg10 harg10 v6 v9 v13 X9 X10 (k0_pay3, k0_pay4, k0_pay5) n).1 (ix2 p (0 : Fin 1))
        = runM (rowS arg9 arg10 v6 v9 v13 X9 X10 p) n
    ∧ (st_k0_t1 (F := Ideal) 𝒱 c bd i arg2 harg2 arg3 harg3 arg4 harg4 arg5 harg5 arg6 harg6 arg7 harg7 arg8 harg8 arg9 harg9 arg10 harg10 v6 v9 v13 X9 X10 (k0_pay3, k0_pay4, k0_pay5) n).2.1 (ix2 p (0 : Fin 1))
        = runL (rowS arg9 arg10 v6 v9 v13 X9 X10 p) n
    ∧ (st_k0_t1 (F := Ideal) 𝒱 c bd i arg2 harg2 arg3 harg3 arg4 harg4 arg5 harg5 arg6 harg6 arg7 harg7 arg8 harg8 arg9 harg9 arg10 harg10 v6 v9 v13 X9 X10 (k0_pay3, k0_pay4, k0_pay5) n).2.2 (ix2 p d)
        = runA (rowS arg9 arg10 v6 v9 v13 X9 X10 p) (colU arg9 X9 d) n := by
  induction n with
  | zero =>
    refine ⟨?_, ?_, ?_⟩
    · show k0_pay3 (F := Ideal) (ix2 p (0 : Fin 1)) = ⊥; exact pay3_at p
    · show k0_pay4 (F := Ideal) (ix2 p (0 : Fin 1)) = 0; exact pay4_at p
    · show k0_pay5 (F := Ideal) (ix2 p d) = 0; exact pay5_at p d
  | succ n ih =>
    have hlt : n < k0_t1_loop.trips := hn
    obtain ⟨ihM, ihL, ihA⟩ := ih (Nat.le_of_lt hlt)
    have hs := st_k0_t1_succ (F := Ideal) 𝒱 c bd i arg2 harg2 arg3 harg3 arg4 harg4 arg5 harg5 arg6 harg6 arg7 harg7 arg8 harg8 arg9 harg9 arg10 harg10 v6 v9 v13 X9 X10 (k0_pay3, k0_pay4, k0_pay5) ⟨n, hlt⟩
    rw [show (⟨n, hlt⟩ : Fin k0_t1_loop.trips).val + 1 = n + 1 from rfl, tripR_eq] at hs
    have hS : rowS arg9 arg10 v6 v9 v13 X9 X10 p n
        = fun r : Fin 1024 => k0_pay6 (F := Ideal) v6 v9 v13 (ld9 arg9 X9 ⟨n, hlt⟩) (ld10 arg10 X10 ⟨n, hlt⟩) (ix2 p r) := by
      funext r; unfold rowS; rw [dif_pos hlt]
    have hU : colU arg9 X9 d n = fun r : Fin 1024 => ld9 arg9 X9 ⟨n, hlt⟩ (ix2 r d) := by
      funext r; unfold colU; rw [dif_pos hlt]
    rw [hs]
    refine ⟨?_, ?_, ?_⟩
    · show k0_pay7 (F := Ideal) v6 v9 v13 _ _ _ (ix2 p (0 : Fin 1)) = stepM _ _
      rw [pay7_at, ihM, hS]
    · show k0_pay10 (F := Ideal) v6 v9 v13 _ _ _ _ (ix2 p (0 : Fin 1)) = stepL _ _ _
      rw [pay10_at, ihM, ihL, hS]
    · show k0_pay11 (F := Ideal) v6 v9 v13 _ _ _ _ (ix2 p d) = stepA _ _ _ _
      rw [pay11_at, ihM, ihA, hS, hU]

end Trip

section Pieces

variable (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1x4096 .i32) (harg7 : arg7.IsWhole) (arg8 : Memref sig .tc .vmem S1x1024x256 .f32) (harg8 : arg8.IsWhole) (arg9 : Memref sig .tc .vmem S4096x256 .bf16) (harg9 : arg9.IsWhole) (arg10 : Memref sig .tc .vmem S1x4096 .f32) (harg10 : arg10.IsWhole)
  (x0 : Vec Ideal S1x4096x256 .f32) (x1 : Vec Ideal S256x256 .f32) (x2 : Vec Ideal S1x256 .f32)
  (x3 : Vec Ideal S256x256 .f32) (x4 : Vec Ideal S1x256 .f32) (x5 : Vec Ideal S1x1x4096 .i32)

/-- The query tile the body loads from the staged `x` block: rows `1024 · (i 1)` onward. -/
def ldx : Vec Ideal S1x1024x256 .f32 :=
  View.ld x0 (Rect.unit (s := S1x4096x256) (k0_off1 i) S1x1024x256.size (k0_off1_inb i))

/-- At a later query tile of a batch (the scratch buffers holding `xs0`, `xs1`): the stored block is the quotient of
    the loop's last numerator by its last denominator. -/
theorem out_B_eq (hc0 : ¬cond0_0 i) (xs0 : Vec Ideal S4096x256 .bf16) (xs1 : Vec Ideal S1x4096 .f32) :
    out0_B_6 (F := Ideal) c i arg2 harg2 arg3 harg3 arg4 harg4 arg5 harg5 arg6 harg6 arg7 harg7 arg8 harg8 arg9 harg9 arg10 harg10 hc0 x0 x1 x2 x3 x4 x5 xs0 xs1
      = k0_pay12
          (st_k0_t1 (F := Ideal) Variants.none c none i arg2 harg2 arg3 harg3 arg4 harg4 arg5 harg5 arg6 harg6 arg7 harg7 arg8 harg8 arg9 harg9 arg10 harg10
            (ldx i x0) x1 x2 (harg9.unread xs0) (harg10.unread xs1) (k0_pay3, k0_pay4, k0_pay5) k0_t1_loop.trips).2.1
          (st_k0_t1 (F := Ideal) Variants.none c none i arg2 harg2 arg3 harg3 arg4 harg4 arg5 harg5 arg6 harg6 arg7 harg7 arg8 harg8 arg9 harg9 arg10 harg10
            (ldx i x0) x1 x2 (harg9.unread xs0) (harg10.unread xs1) (k0_pay3, k0_pay4, k0_pay5) k0_t1_loop.trips).2.2 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0 xs1)]
  unfold kernelRun0_B
  dsimp only
  sl_unfold_words
  rw [View.canon_unit_zero hz3]
  simp only [View.readAt_eq_ld, harg2.read_unread, harg3.read_unread, harg4.read_unread, View.ld_unit_zero (S := S256x256) hz2, View.ld_unit_zero (S := S1x256) hz2]
  rfl

/-- A whole memref after ONE store of its whole shape over anything holds the contents that read the payload. -/
theorem writes_whole_eq_unread {s : Shape} {e : EltTy} {mm : Memref sig .tc .vmem s e} (h : mm.IsWhole)
    {off : Fin s.rank → Nat} (ho : off = fun _ => 0) (inb : ∀ a, off a + s.size a ≤ s.size a) (w : s.Idx → Elt Ideal e) :
    mm.view.writes (Elt Ideal) mm.view.junk [(⟨Rect.unit off s.size inb, w⟩ : View.Piece (Elt Ideal) s e)] = h.unread w := by
  apply h.read_bijective.1
  rw [View.read_writes_eq_canon _ _ _ (fun y => ⟨_, List.mem_singleton_self _, View.mem_set_unit_zero ho inb y⟩),
    View.canon_unit_zero ho, h.read_unread]

/-- At a batch's first query tile: the same quotient, the loop reading the value projection and the mask row the body
    has just stored. -/
theorem out_A_eq (hc0 : cond0_0 i) :
    out0_A_6 (F := Ideal) c i arg2 harg2 arg3 harg3 arg4 harg4 arg5 harg5 arg6 harg6 arg7 harg7 arg8 harg8 arg9 harg9 arg10 harg10 hc0 x0 x1 x2 x3 x4 x5
      = k0_pay12
          (st_k0_t1 (F := Ideal) Variants.none c none i arg2 harg2 arg3 harg3 arg4 harg4 arg5 harg5 arg6 harg6 arg7 harg7 arg8 harg8 arg9 harg9 arg10 harg10
            (ldx i x0) x1 x2 (harg9.unread (k0_pay1 x0 x3 x4)) (harg10.unread (k0_pay2 x5)) (k0_pay3, k0_pay4, k0_pay5) k0_t1_loop.trips).2.1
          (st_k0_t1 (F := Ideal) Variants.none c none i arg2 harg2 arg3 harg3 arg4 harg4 arg5 harg5 arg6 harg6 arg7 harg7 arg8 harg8 arg9 harg9 arg10 harg10
            (ldx i x0) x1 x2 (harg9.unread (k0_pay1 x0 x3 x4)) (harg10.unread (k0_pay2 x5)) (k0_pay3, k0_pay4, k0_pay5) k0_t1_loop.trips).2.2 := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz3]
  simp only [View.readAt_eq_ld, harg2.read_unread, harg3.read_unread, harg4.read_unread, harg5.read_unread, harg6.read_unread, harg7.read_unread,
    View.ld_unit_zero (S := S256x256) hz2, View.ld_unit_zero (S := S1x256) hz2, View.ld_unit_zero (S := S1x4096x256) hz3,
    View.ld_unit_zero (S := S1x1x4096) hz3, writes_whole_eq_unread harg9 hz2, writes_whole_eq_unread harg10 hz2]
  rfl

/-- What a batch's first query tile leaves in the value scratch: the value projection of the whole sequence. -/
theorem sout_A_0_eq (hc0 : cond0_0 i) :
    sout0_A_0 (F := Ideal) c i arg2 harg2 arg3 harg3 arg4 harg4 arg5 harg5 arg6 harg6 arg7 harg7 arg8 harg8 arg9 harg9 arg10 harg10 hc0 x0 x1 x2 x3 x4 x5 = k0_pay1 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2]
  simp only [View.readAt_eq_ld, harg2.read_unread, harg5.read_unread, harg6.read_unread,
    View.ld_unit_zero (S := S256x256) hz2, View.ld_unit_zero (S := S1x256) hz2, View.ld_unit_zero (S := S1x4096x256) hz3]

/-- … and in the mask scratch: the additive mask row. -/
theorem sout_A_1_eq (hc0 : cond0_0 i) :
    sout0_A_1 (F := Ideal) c i arg2 harg2 arg3 harg3 arg4 harg4 arg5 harg5 arg6 harg6 arg7 harg7 arg8 harg8 arg9 harg9 arg10 harg10 hc0 x0 x1 x2 x3 x4 x5 = k0_pay2 x5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2]
  simp only [View.readAt_eq_ld, harg7.read_unread, View.ld_unit_zero (S := S1x1x4096) hz3]

end Pieces

end Cert.Attn

end
-- ==== Proof.KernelBlocks.lean ====
/-
  What the kernel's windows stage, read at an index.

  Grid point `t` of the 4 × 4 grid is batch `t / 4`, query tile `t % 4`. The `x` window stages the whole batch
  `x[t / 4]`, the mask window the batch's mask row; the four parameter windows stage, whole, the arrays the host prefix
  cut out of `W` and `bias`: rows 0 to 255 and 512 to 767 of `W`, and the matching entries of `bias` as one row.
-/
import proofs.«415784_j26860725469572_3_alg».proof.Proof.Gen.KernelIdeal.Frame
import proofs.«415784_j26860725469572_3_alg».proof.Proof.AttnSpec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Attn

open Idealize.ShloMosaic Idealize.ShloMosaic.TcCoe Idealize.ShloMosaic.ValueIdx
open Idealize.SL.Sem
open Cert.KernelIdeal Cert.KernelIdeal.Gen

/-- The batch of grid point `t`. -/
def batchOf (t : Fin cfg0.N) : Fin 4 := ⟨t.val / 4, by have := lt_of_lt_of_eq t.isLt (show cfg0.N = 16 from N_0); omega⟩
/-- The query tile of grid point `t`. -/
def tileOf (t : Fin cfg0.N) : Fin 4 := ⟨t.val % 4, by omega⟩

variable (m : (ℓ : Loc nD τ sig) → Buf (Elt Ideal) ℓ) (c : Dev nD) (t : Fin cfg0.N)

/-- The four argument arrays, at their literal types. -/
abbrev argX : FVec Ideal SX .f32 := m ((c : Thread nD τ).loc main_arg0)
abbrev argW : FVec Ideal SW .f32 := m ((c : Thread nD τ).loc main_arg1)
abbrev argB : FVec Ideal SB .f32 := m ((c : Thread nD τ).loc main_arg2)
abbrev argM : IVec SM 32 := m ((c : Thread nD τ).loc main_arg3)

/-- The six staged input blocks at point `t`, at their literal types. -/
abbrev xblk : Vec Ideal S1x4096x256 .f32 := iblk m c 0 t
abbrev wqblk : Vec Ideal S256x256 .f32 := iblk m c 1 t
abbrev bqblk : Vec Ideal S1x256 .f32 := iblk m c 2 t
abbrev wvblk : Vec Ideal S256x256 .f32 := iblk m c 3 t
abbrev bvblk : Vec Ideal S1x256 .f32 := iblk m c 4 t
abbrev mblk : Vec Ideal S1x1x4096 .i32 := iblk m c 5 t

/-- The index maps, decided once over the sixteen grid points: the `x` window and the mask window move with the batch
    `t / 4` alone, the four parameter windows do not move, the result window moves with batch and query tile. -/
private theorem xIndex : ∀ t : Fin cfg0.N, win0_0.index t (0 : Fin 3) = t.val / 4 ∧ win0_0.index t (1 : Fin 3) = 0 ∧ win0_0.index t (2 : Fin 3) = 0 :=
  (by decide +kernel : ∀ t : Fin grid0.N, _)
private theorem wqIndex : ∀ t : Fin cfg0.N, win0_1.index t (0 : Fin 2) = 0 ∧ win0_1.index t (1 : Fin 2) = 0 :=
  (by decide +kernel : ∀ t : Fin grid0.N, _)
private theorem bqIndex : ∀ t : Fin cfg0.N, win0_2.index t (0 : Fin 2) = 0 ∧ win0_2.index t (1 : Fin 2) = 0 :=
  (by decide +kernel : ∀ t : Fin grid0.N, _)
private theorem wvIndex : ∀ t : Fin cfg0.N, win0_3.index t (0 : Fin 2) = 0 ∧ win0_3.index t (1 : Fin 2) = 0 :=
  (by decide +kernel : ∀ t : Fin grid0.N, _)
private theorem bvIndex : ∀ t : Fin cfg0.N, win0_4.index t (0 : Fin 2) = 0 ∧ win0_4.index t (1 : Fin 2) = 0 :=
  (by decide +kernel : ∀ t : Fin grid0.N, _)
private theorem maskIndex : ∀ t : Fin cfg0.N, win0_5.index t (0 : Fin 3) = t.val / 4 ∧ win0_5.index t (1 : Fin 3) = 0 ∧ win0_5.index t (2 : Fin 3) = 0 :=
  (by decide +kernel : ∀ t : Fin grid0.N, _)
private theorem outIndex : ∀ t : Fin cfg0.N, win0_6.index t (0 : Fin 3) = t.val / 4 ∧ win0_6.index t (1 : Fin 3) = t.val % 4 ∧ win0_6.index t (2 : Fin 3) = 0 :=
  (by decide +kernel : ∀ t : Fin grid0.N, _)
/-- Every grid point writes its result block back. -/
private theorem outFlush : ∀ t : Fin cfg0.N, (cfg0.win 6).flush t = true :=
  (by decide +kernel : ∀ t : Fin grid0.N, (cfg0.win 6).flush t = true)

theorem xblk_at (k : Fin 4096) (e : Fin 256) :
    xblk m c t (ix3 (0 : Fin 1) k e) = argX m c (ix3 (batchOf t) k e) := by
  obtain ⟨e0, e1, e2⟩ := xIndex t
  show V m c main_arg0 (((cfg0.win 0).blk t).view.emb (ix3 (0 : Fin 1) k e)) = m ((c : Thread nD τ).loc main_arg0) (ix3 (batchOf t) k e)
  rw [V_main_arg0 m c]
  refine congrArg _ ?_
  funext a
  apply Fin.ext
  match a with
  | ⟨0, _⟩ => show win0_0.index t (0 : Fin 3) * 1 + 1 * 0 = t.val / 4; omega
  | ⟨1, _⟩ => show win0_0.index t (1 : Fin 3) * 4096 + 1 * k.val = k.val; omega
  | ⟨2, _⟩ => show win0_0.index t (2 : Fin 3) * 256 + 1 * e.val = e.val; omega

theorem mblk_at (k : Fin 4096) :
    mblk m c t (ix3 (0 : Fin 1) (0 : Fin 1) k) = argM m c (ix3 (batchOf t) (0 : Fin 1) k) := by
  obtain ⟨e0, e1, e2⟩ := maskIndex t
  show V m c main_arg3 (((cfg0.win 5).blk t).view.emb (ix3 (0 : Fin 1) (0 : Fin 1) k)) = m ((c : Thread nD τ).loc main_arg3) (ix3 (batchOf t) (0 : Fin 1) k)
  rw [V_main_arg3 m c]
  refine congrArg _ ?_
  funext a
  apply Fin.ext
  match a with
  | ⟨0, _⟩ => show win0_5.index t (0 : Fin 3) * 1 + 1 * 0 = t.val / 4; omega
  | ⟨1, _⟩ => show win0_5.index t (1 : Fin 3) * 1 + 1 * 0 = 0; omega
  | ⟨2, _⟩ => show win0_5.index t (2 : Fin 3) * 4096 + 1 * k.val = k.val; omega

/-- The array the `W_q` window stages is rows 0 to 255 of `W`. -/
private theorem hostWq : (V m c main_v0 : S256x256.Idx → EReal)
    = extractStridedSlice S256x256 ![0, 0] (m ((c : Thread nD τ).loc main_arg1)) slices_S768x256_S256x256_0_0 := by
  dsimp only [Gen.V, Gen.hostOps0]; after_results

/-- The array the `W_v` window stages is rows 512 to 767 of `W`. -/
private theorem hostWv : (V m c main_v1 : S256x256.Idx → EReal)
    = extractStridedSlice S256x256 ![512, 0] (m ((c : Thread nD τ).loc main_arg1)) slices_S768x256_S256x256_512_0 := by
  dsimp only [Gen.V, Gen.hostOps0]; after_results

/-- The array the `b_q` window stages is entries 0 to 255 of `bias`, as one row. -/
private theorem hostBq : (V m c main_v3 : S1x256.Idx → EReal)
    = shapeCast S1x256 (extractStridedSlice S256 ![0] (m ((c : Thread nD τ).loc main_arg2)) slices_S768_S256_0) shapeCasts_S256_S1x256 := by
  dsimp only [Gen.V, Gen.hostOps0]; after_results; rfl

/-- The array the `b_v` window stages is entries 512 to 767 of `bias`, as one row. -/
private theorem hostBv : (V m c main_v5 : S1x256.Idx → EReal)
    = shapeCast S1x256 (extractStridedSlice S256 ![512] (m ((c : Thread nD τ).loc main_arg2)) slices_S768_S256_512) shapeCasts_S256_S1x256 := by
  dsimp only [Gen.V, Gen.hostOps0]; after_results; rfl

theorem wqblk_at (d e : Fin 256) :
    wqblk m c t (ix2 d e) = argW m c (ix2 (⟨0 + d.val, by have := d.isLt; omega⟩ : Fin 768) e) := by
  obtain ⟨e0, e1⟩ := wqIndex t
  have hemb : ((cfg0.win 1).blk t).view.emb (ix2 d e) = (ix2 d e : S256x256.Idx) := by
    funext a; apply Fin.ext
    match a with
    | ⟨0, _⟩ => show win0_1.index t (0 : Fin 2) * 256 + 1 * d.val = d.val; omega
    | ⟨1, _⟩ => show win0_1.index t (1 : Fin 2) * 256 + 1 * e.val = e.val; omega
  show V m c main_v0 (((cfg0.win 1).blk t).view.emb (ix2 d e)) = _
  rw [hemb, hostWq m c]
  refine extractStridedSlice_apply _ _ _ _ _ fun a => ?_
  match a with
  | ⟨0, _⟩ => show 0 + d.val = 0 + d.val; rfl
  | ⟨1, _⟩ => show e.val = 0 + e.val; omega

theorem wvblk_at (d e : Fin 256) :
    wvblk m c t (ix2 d e) = argW m c (ix2 (⟨512 + d.val, by have := d.isLt; omega⟩ : Fin 768) e) := by
  obtain ⟨e0, e1⟩ := wvIndex t
  have hemb : ((cfg0.win 3).blk t).view.emb (ix2 d e) = (ix2 d e : S256x256.Idx) := by
    funext a; apply Fin.ext
    match a with
    | ⟨0, _⟩ => show win0_3.index t (0 : Fin 2) * 256 + 1 * d.val = d.val; omega
    | ⟨1, _⟩ => show win0_3.index t (1 : Fin 2) * 256 + 1 * e.val = e.val; omega
  show V m c main_v1 (((cfg0.win 3).blk t).view.emb (ix2 d e)) = _
  rw [hemb, hostWv m c]
  refine extractStridedSlice_apply _ _ _ _ _ fun a => ?_
  match a with
  | ⟨0, _⟩ => show 512 + d.val = 512 + d.val; rfl
  | ⟨1, _⟩ => show e.val = 0 + e.val; omega

theorem bqblk_at (d : Fin 256) :
    bqblk m c t (ix2 (0 : Fin 1) d) = argB m c (ix1 (⟨0 + d.val, by have := d.isLt; omega⟩ : Fin 768)) := by
  obtain ⟨e0, e1⟩ := bqIndex t
  have hemb : ((cfg0.win 2).blk t).view.emb (ix2 (0 : Fin 1) d) = (ix2 (0 : Fin 1) d : S1x256.Idx) := by
    funext a; apply Fin.ext
    match a with
    | ⟨0, _⟩ => show win0_2.index t (0 : Fin 2) * 1 + 1 * 0 = 0; omega
    | ⟨1, _⟩ => show win0_2.index t (1 : Fin 2) * 256 + 1 * d.val = d.val; omega
  show V m c main_v3 (((cfg0.win 2).blk t).view.emb (ix2 (0 : Fin 1) d)) = _
  rw [hemb, hostBq m c]
  refine (shapeCast_a_1a_apply _ _ (0 : Fin 1) d).trans ?_
  refine extractStridedSlice_apply _ _ _ _ _ fun a => ?_
  match a with
  | ⟨0, _⟩ => show 0 + d.val = 0 + d.val; rfl

theorem bvblk_at (d : Fin 256) :
    bvblk m c t (ix2 (0 : Fin 1) d) = argB m c (ix1 (⟨512 + d.val, by have := d.isLt; omega⟩ : Fin 768)) := by
  obtain ⟨e0, e1⟩ := bvIndex t
  have hemb : ((cfg0.win 4).blk t).view.emb (ix2 (0 : Fin 1) d) = (ix2 (0 : Fin 1) d : S1x256.Idx) := by
    funext a; apply Fin.ext
    match a with
    | ⟨0, _⟩ => show win0_4.index t (0 : Fin 2) * 1 + 1 * 0 = 0; omega
    | ⟨1, _⟩ => show win0_4.index t (1 : Fin 2) * 256 + 1 * d.val = d.val; omega
  show V m c main_v5 (((cfg0.win 4).blk t).view.emb (ix2 (0 : Fin 1) d)) = _
  rw [hemb, hostBv m c]
  refine (shapeCast_a_1a_apply _ _ (0 : Fin 1) d).trans ?_
  refine extractStridedSlice_apply _ _ _ _ _ fun a => ?_
  match a with
  | ⟨0, _⟩ => show 512 + d.val = 512 + d.val; rfl

/-- The output window's block at point `t` is rows `1024 · (t % 4)` onward of batch `t / 4`: the array index of the
    block's entry `(0, p, d)`. -/
theorem oblk_emb (p : Fin 1024) (d : Fin 256) :
    ((cfg0.win 6).blk t).view.emb (ix3 (0 : Fin 1) p d)
      = (ix3 (batchOf t) (⟨1024 * (tileOf t).val + p.val, by have := p.isLt; have := (tileOf t).isLt; omega⟩ : Fin 4096) d : S4x4096x256.Idx) := by
  obtain ⟨e0, e1, e2⟩ := outIndex t
  funext a
  apply Fin.ext
  match a with
  | ⟨0, _⟩ => show win0_6.index t (0 : Fin 3) * 1 + 1 * 0 = t.val / 4; omega
  | ⟨1, _⟩ => show win0_6.index t (1 : Fin 3) * 1024 + 1 * p.val = 1024 * (t.val % 4) + p.val; omega
  | ⟨2, _⟩ => show win0_6.index t (2 : Fin 3) * 256 + 1 * d.val = d.val; omega

/-- An index of the result array is in point `t`'s block iff each coordinate is in the block's range on its axis. -/
private theorem mem_oblk (t : Fin cfg0.N) (i : S4x4096x256.Idx) :
    i ∈ ((cfg0.win 6).blk t).view.set ↔ ∀ a : Fin 3, win0_6.index t a * S1x1024x256.size a ≤ (i a).val ∧ (i a).val < win0_6.index t a * S1x1024x256.size a + S1x1024x256.size a := by
  show i ∈ ((View.whole main_v6).slice (win0_6.rect t)).set ↔ _
  rw [View.set_slice_whole, Rect.mem_set_unit]
  exact Iff.rfl

/-- Every index of the result array lies in the block of the point of its batch and query tile. -/
theorem ocover (j : S4x4096x256.Idx) : ∃ t : Fin cfg0.N, (cfg0.win 6).flush t = true ∧ j ∈ ((cfg0.win 6).blk t).view.set := by
  have h0 : (j 0).val < 4 := (j 0).isLt
  have h1 : (j 1).val < 4096 := (j 1).isLt
  have h2 : (j 2).val < 256 := (j 2).isLt
  have hN : cfg0.N = 16 := N_0
  obtain ⟨t, ht⟩ : ∃ t : Fin cfg0.N, t.val = 4 * (j 0).val + (j 1).val / 1024 :=
    ⟨⟨4 * (j 0).val + (j 1).val / 1024, by rw [hN]; omega⟩, rfl⟩
  obtain ⟨e0, e1, e2⟩ := outIndex t
  refine ⟨t, outFlush t, ?_⟩
  rw [mem_oblk]
  intro a
  match a with
  | ⟨0, _⟩ => show win0_6.index t (0 : Fin 3) * 1 ≤ (j 0).val ∧ (j 0).val < win0_6.index t (0 : Fin 3) * 1 + 1; omega
  | ⟨1, _⟩ => show win0_6.index t (1 : Fin 3) * 1024 ≤ (j 1).val ∧ (j 1).val < win0_6.index t (1 : Fin 3) * 1024 + 1024; omega
  | ⟨2, _⟩ => show win0_6.index t (2 : Fin 3) * 256 ≤ (j 2).val ∧ (j 2).val < win0_6.index t (2 : Fin 3) * 256 + 256; omega

end Cert.Attn

end
-- ==== Proof.KernelValue.lean ====
/-
  The kernel's result array is the attention output of its arguments.

  At grid point `t` (batch `t / 4`, query tile `t % 4`) the two scratch buffers hold the batch's value projection and
  additive mask row — written at the batch's first tile and kept since (`scr0_at`, `scr1_at`) —, so the key loop's tiles are
  the tiles of the masked score row, the carried values end at the streaming softmax's closed forms, and the stored quotient
  is the attention output of the tile's rows (`core`, `oblk_at`). The output blocks tile the result array (`final`).
-/
import proofs.«415784_j26860725469572_3_alg».proof.Proof.KernelTrip
import proofs.«415784_j26860725469572_3_alg».proof.Proof.KernelBlocks
import proofs.«415784_j26860725469572_3_alg».proof.Proof.Gen.KernelIdeal.Value

set_option maxRecDepth 16384

noncomputable section

namespace Cert.Attn

open Idealize.ShloMosaic Idealize.ShloMosaic.TcCoe Idealize.ShloMosaic.ValueIdx
open Idealize.SL Idealize.SL.Sem
open Cert.KernelIdeal Cert.KernelIdeal.Gen

/-- The key loop makes four trips. -/
theorem trips_eq : k0_t1_loop.trips = 4 := by decide

/-! ## The body's loads at an index -/

/-- The query tile's row `p` is row `1024 · (i 1) + p` of the staged batch. -/
theorem ldx_at (i : grid0.Coords) (x0 : Vec Ideal S1x4096x256 .f32) (p : Fin 1024) (e : Fin 256) :
    ldx i x0 (ix3 (0 : Fin 1) p e)
      = x0 (ix3 (0 : Fin 1) (⟨1024 * (i 1).val + p.val, by have h1 : (i 1).val < 4 := (i 1).isLt; have := p.isLt; omega⟩ : Fin 4096) e) := by
  unfold ldx
  show x0 ((Rect.unit (s := S1x4096x256) (k0_off1 i) S1x1024x256.size (k0_off1_inb i)).emb (ix3 (0 : Fin 1) p e)) = _
  congr 1
  funext a; apply Fin.ext
  rw [Rect.emb_apply]
  have ho := k0_off1_eq i
  match a with
  | ⟨0, _⟩ => show (k0_off1 i) 0 + 1 * 0 = 0; rw [ho]; rfl
  | ⟨1, _⟩ => show (k0_off1 i) 1 + 1 * p.val = 1024 * (i 1).val + p.val; rw [ho]; show 1024 * (i 1).val + 1 * p.val = _; omega
  | ⟨2, _⟩ => show (k0_off1 i) 2 + 1 * e.val = e.val; rw [ho]; show 0 + 1 * e.val = _; omega

/-- Trip `k`'s value tile's row `r` is row `1024 · k + r` of the scratch. -/
theorem ld9_at (arg9 : Memref sig .tc .vmem S4096x256 .bf16) (harg9 : arg9.IsWhole) (xs0 : Vec Ideal S4096x256 .bf16)
    (k : Fin k0_t1_loop.trips) (r : Fin 1024) (d : Fin 256) :
    ld9 arg9 (harg9.unread xs0) k (ix2 r d)
      = xs0 (ix2 (⟨1024 * k.val + r.val, by have := lt_of_lt_of_eq k.isLt trips_eq; have := r.isLt; omega⟩ : Fin 4096) d) := by
  unfold ld9
  rw [harg9.readAt_unread]
  congr 1
  funext a; apply Fin.ext
  have ho := k0_off2_eq k
  match a with
  | ⟨0, _⟩ => show (k0_off2 k) 0 + 1 * r.val = 1024 * k.val + r.val; rw [ho]; show 1024 * k.val + 1 * r.val = _; omega
  | ⟨1, _⟩ => show (k0_off2 k) 1 + 1 * d.val = d.val; rw [ho]; show 0 + 1 * d.val = _; omega

/-- Trip `k`'s mask slice's entry `r` is entry `1024 · k + r` of the scratch. -/
theorem ld10_at (arg10 : Memref sig .tc .vmem S1x4096 .f32) (harg10 : arg10.IsWhole) (xs1 : Vec Ideal S1x4096 .f32)
    (k : Fin k0_t1_loop.trips) (r : Fin 1024) :
    ld10 arg10 (harg10.unread xs1) k (ix2 (0 : Fin 1) r)
      = xs1 (ix2 (0 : Fin 1) (⟨1024 * k.val + r.val, by have := lt_of_lt_of_eq k.isLt trips_eq; have := r.isLt; omega⟩ : Fin 4096)) := by
  unfold ld10
  rw [harg10.readAt_unread]
  congr 1
  funext a; apply Fin.ext
  have ho := k0_off3_eq k
  match a with
  | ⟨0, _⟩ => show (k0_off3 k) 0 + 1 * 0 = 0; rw [ho]; rfl
  | ⟨1, _⟩ => show (k0_off3 k) 1 + 1 * r.val = 1024 * k.val + r.val; rw [ho]; show 1024 * k.val + 1 * r.val = _; omega

/-! ## One output entry -/

section Core

variable (X : FVec Ideal SX .f32) (W : FVec Ideal SW .f32) (B : FVec Ideal SB .f32) (M : IVec SM 32)

/-- The additive mask row of batch `b`: `⊥` at a masked key, else `0`. -/
def maskAdd (b : Fin 4) (k : Fin 4096) : EReal := if M (ix3 b (0 : Fin 1) k) = 0#32 then ⊥ else 0

/-- Adding the mask row to the score is the masked score: `s + ⊥ = ⊥`, `s + 0 = s`. -/
theorem score_add_maskAdd (b : Fin 4) (i k : Fin 4096) :
    scoreAt X W B b i k + maskAdd M b k = msAt X W B M b i k := by
  unfold maskAdd msAt
  split
  · exact EReal.add_bot _
  · exact add_zero _

/-- With the scratch buffers holding batch `b`'s value projection and additive mask row, and the staged blocks the
    batch's `x` and the query parameters, the stored quotient at row `p`, feature `d` of the tile is the attention output
    of query `1024 · (i 1) + p`. -/
theorem core (hX : RealValued X) (hW : RealValued W) (hB : RealValued B) (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x1x4096 .i32) (harg7 : arg7.IsWhole) (arg8 : Memref sig .tc .vmem S1x1024x256 .f32) (harg8 : arg8.IsWhole) (arg9 : Memref sig .tc .vmem S4096x256 .bf16) (harg9 : arg9.IsWhole) (arg10 : Memref sig .tc .vmem S1x4096 .f32) (harg10 : arg10.IsWhole)
    (x0 : Vec Ideal S1x4096x256 .f32) (x1 : Vec Ideal S256x256 .f32) (x2 : Vec Ideal S1x256 .f32)
    (xs0 : Vec Ideal S4096x256 .bf16) (xs1 : Vec Ideal S1x4096 .f32) (b : Fin 4)
    (h0 : ∀ (k : Fin 4096) (e : Fin 256), x0 (ix3 (0 : Fin 1) k e) = X (ix3 b k e))
    (h1 : ∀ d e : Fin 256, x1 (ix2 d e) = W (ix2 (⟨0 + d.val, by have := d.isLt; omega⟩ : Fin 768) e))
    (h2 : ∀ d : Fin 256, x2 (ix2 (0 : Fin 1) d) = B (ix1 (⟨0 + d.val, by have := d.isLt; omega⟩ : Fin 768)))
    (hs0 : ∀ (k : Fin 4096) (d : Fin 256), xs0 (ix2 k d) = vAt X W B b k d)
    (hs1 : ∀ k : Fin 4096, xs1 (ix2 (0 : Fin 1) k) = maskAdd M b k)
    (hk : ∃ k : Fin 4096, M (ix3 b (0 : Fin 1) k) ≠ 0#32) (p : Fin 1024) (d : Fin 256) :
    k0_pay12
        (st_k0_t1 (F := Ideal) Variants.none c none i arg2 harg2 arg3 harg3 arg4 harg4 arg5 harg5 arg6 harg6 arg7 harg7 arg8 harg8 arg9 harg9 arg10 harg10
          (ldx i x0) x1 x2 (harg9.unread xs0) (harg10.unread xs1) (k0_pay3, k0_pay4, k0_pay5) k0_t1_loop.trips).2.1
        (st_k0_t1 (F := Ideal) Variants.none c none i arg2 harg2 arg3 harg3 arg4 harg4 arg5 harg5 arg6 harg6 arg7 harg7 arg8 harg8 arg9 harg9 arg10 harg10
          (ldx i x0) x1 x2 (harg9.unread xs0) (harg10.unread xs1) (k0_pay3, k0_pay4, k0_pay5) k0_t1_loop.trips).2.2
        (ix3 (0 : Fin 1) p d)
      = attnAt X W B M b (⟨1024 * (i 1).val + p.val, by have h1 : (i 1).val < 4 := (i 1).isLt; have := p.isLt; omega⟩ : Fin 4096) d := by
  rw [pay12_at]
  obtain ⟨-, hL, hA⟩ := st_rows Variants.none none c i arg2 harg2 arg3 harg3 arg4 harg4 arg5 harg5 arg6 harg6 arg7 harg7 arg8 harg8 arg9 harg9 arg10 harg10
    (ldx i x0) x1 x2 (harg9.unread xs0) (harg10.unread xs1) k0_t1_loop.trips le_rfl p d
  rw [hA, hL]
  have hS : rowS arg9 arg10 (ldx i x0) x1 x2 (harg9.unread xs0) (harg10.unread xs1) p
      = tile (msAt X W B M b (⟨1024 * (i 1).val + p.val, by have h1 : (i 1).val < 4 := (i 1).isLt; have := p.isLt; omega⟩ : Fin 4096)) := by
    funext j r
    unfold rowS tile
    by_cases hj : j < k0_t1_loop.trips
    · have hj4 : j < 4 := lt_of_lt_of_eq hj trips_eq
      have hr := r.isLt
      rw [dif_pos hj, dif_pos (show 1024 * j + r.val < 4096 by omega), pay6_at, ld10_at, hs1, ← score_add_maskAdd]
      congr 1
      unfold scoreAt
      congr 1
      refine Finset.sum_congr rfl fun d' _ => ?_
      rw [ld9_at, hs0, h2]
      congr 1
      unfold qAt projAt
      congr 1
      refine Finset.sum_congr rfl fun e _ => ?_
      rw [ldx_at, h0, h1]
    · have hj4 : ¬ j < 4 := fun h => hj (lt_of_lt_of_eq h trips_eq.symm)
      rw [dif_neg hj, dif_neg (show ¬ 1024 * j + r.val < 4096 by omega)]
  have hU : colU arg9 (harg9.unread xs0) d = tile (fun k => vAt X W B b k d) := by
    funext j r
    unfold colU tile
    by_cases hj : j < k0_t1_loop.trips
    · have hj4 : j < 4 := lt_of_lt_of_eq hj trips_eq
      have hr := r.isLt
      rw [dif_pos hj, dif_pos (show 1024 * j + r.val < 4096 by omega), ld9_at, hs0]
    · have hj4 : ¬ j < 4 := fun h => hj (lt_of_lt_of_eq h trips_eq.symm)
      rw [dif_neg hj, dif_neg (show ¬ 1024 * j + r.val < 4096 by omega)]
  have hu : RealValued (fun k : Fin 4096 => vAt X W B b k d) := fun k => projAt_real X W B hX hW hB 512 (by omega) b k d
  rw [hS, hU, trips_eq,
    stream_acc (msAt X W B M b _) (fun k : Fin 4096 => vAt X W B b k d) (msAt_scoreLike X W B M hX hW hB b _) hu,
    stream_den (msAt X W B M b _) (msAt_scoreLike X W B M hX hW hB b _)]
  exact attnStreamAt_eq X W B M hX hW hB b hk _ d

/-- The value projection the body stores is batch `b`'s `v`, when the staged blocks are the batch's `x` and the value parameters. -/
theorem pay1_is_v (x0 : Vec Ideal S1x4096x256 .f32) (x3 : Vec Ideal S256x256 .f32) (x4 : Vec Ideal S1x256 .f32) (b : Fin 4)
    (h0 : ∀ (k : Fin 4096) (e : Fin 256), x0 (ix3 (0 : Fin 1) k e) = X (ix3 b k e))
    (h3 : ∀ d e : Fin 256, x3 (ix2 d e) = W (ix2 (⟨512 + d.val, by have := d.isLt; omega⟩ : Fin 768) e))
    (h4 : ∀ d : Fin 256, x4 (ix2 (0 : Fin 1) d) = B (ix1 (⟨512 + d.val, by have := d.isLt; omega⟩ : Fin 768)))
    (k : Fin 4096) (d : Fin 256) : k0_pay1 (F := Ideal) x0 x3 x4 (ix2 k d) = vAt X W B b k d := by
  rw [pay1_at]
  unfold vAt projAt
  congr 1
  · refine Finset.sum_congr rfl fun e _ => ?_
    rw [h0, h3]
  · exact h4 d

/-- The mask row the body stores is batch `b`'s additive mask row. -/
theorem pay2_is_mask (x5 : Vec Ideal S1x1x4096 .i32) (b : Fin 4)
    (h5 : ∀ k : Fin 4096, x5 (ix3 (0 : Fin 1) (0 : Fin 1) k) = M (ix3 b (0 : Fin 1) k)) (k : Fin 4096) :
    k0_pay2 (F := Ideal) x5 (ix2 (0 : Fin 1) k) = maskAdd M b k := by
  rw [pay2_at, h5]
  rfl

end Core

/-! ## Point by point -/

section Points

variable (m : (ℓ : Loc nD τ sig) → Buf (Elt Ideal) ℓ) (c : Dev nD)

/-- The second grid coordinate of point `t` is its query tile. -/
theorem coords1 : ∀ t : Fin cfg0.N, (grid0.coords t 1).val = t.val % 4 :=
  (by decide +kernel : ∀ t : Fin grid0.N, (grid0.coords t 1).val = t.val % 4)

/-- After a batch's first query tile the scratch buffers hold the batch's value projection and additive mask row. -/
theorem scr_A (t : Fin cfg0.N) (h0 : t.val % 4 = 0) (k : Fin 4096) (d : Fin 256) :
    (outsAt0 m c t.val t.isLt).2.1 (ix2 k d) = vAt (argX m c) (argW m c) (argB m c) (batchOf t) k d
    ∧ (outsAt0 m c t.val t.isLt).2.2 (ix2 (0 : Fin 1) k) = maskAdd (argM m c) (batchOf t) k := by
  rw [outsAt0_A m c t h0]
  dsimp only
  rw [sout_A_0_eq, sout_A_1_eq]
  exact ⟨pay1_is_v (argX m c) (argW m c) (argB m c) (iblk m c 0 t) (iblk m c 3 t) (iblk m c 4 t) (batchOf t)
      (fun k e => xblk_at m c t k e) (fun d e => wvblk_at m c t d e) (fun d => bvblk_at m c t d) k d,
    pay2_is_mask (argM m c) (iblk m c 5 t) (batchOf t) (fun k => mblk_at m c t k) k⟩

/-- … and they still do after every later tile of the batch: those tiles store nothing there. -/
theorem scr_at : ∀ (n : ℕ) (hn : n < cfg0.N) (k : Fin 4096) (d : Fin 256),
    (outsAt0 m c n hn).2.1 (ix2 k d) = vAt (argX m c) (argW m c) (argB m c) (batchOf ⟨n, hn⟩) k d
    ∧ (outsAt0 m c n hn).2.2 (ix2 (0 : Fin 1) k) = maskAdd (argM m c) (batchOf ⟨n, hn⟩) k
  | 0, hn, k, d => scr_A m c ⟨0, hn⟩ rfl k d
  | n + 1, hn, k, d => by
    by_cases h0 : (n + 1) % 4 = 0
    · exact scr_A m c ⟨n + 1, hn⟩ h0 k d
    · have ih := scr_at n (Nat.lt_of_succ_lt hn) k d
      have hb : batchOf ⟨n + 1, hn⟩ = batchOf ⟨n, Nat.lt_of_succ_lt hn⟩ :=
        Fin.ext (by show (n + 1) / 4 = n / 4; omega)
      rw [outsAt0_B m c ⟨n + 1, hn⟩ h0]
      dsimp only
      unfold sout0_B_0 sout0_B_1
      rw [hb]
      exact ih

/-- What point `t` leaves in the output block: the attention output of its tile's rows. -/
theorem oblk_at (hX : RealValued (argX m c)) (hW : RealValued (argW m c)) (hB : RealValued (argB m c))
    (hM : ∀ b : Fin 4, ∃ k : Fin 4096, argM m c (ix3 b (0 : Fin 1) k) ≠ 0#32)
    (t : Fin cfg0.N) (p : Fin 1024) (d : Fin 256) :
    (outsAt0 m c t.val t.isLt).1 (ix3 (0 : Fin 1) p d)
      = attnAt (argX m c) (argW m c) (argB m c) (argM m c) (batchOf t)
          (⟨1024 * (tileOf t).val + p.val, by have := p.isLt; have := (tileOf t).isLt; omega⟩ : Fin 4096) d := by
  have hc : (grid0.coords t 1).val = t.val % 4 := coords1 t
  have hq : (⟨1024 * (grid0.coords t 1).val + p.val, by have h1 : (grid0.coords t 1).val < 4 := (grid0.coords t 1).isLt; have := p.isLt; omega⟩ : Fin 4096)
      = ⟨1024 * (tileOf t).val + p.val, by have := p.isLt; have := (tileOf t).isLt; omega⟩ :=
    Fin.ext (by show 1024 * (grid0.coords t 1).val + p.val = 1024 * (t.val % 4) + p.val; rw [hc])
  by_cases h0 : t.val % 4 = 0
  · rw [outsAt0_A m c t h0]
    dsimp only
    rw [out_A_eq, ← hq]
    exact core (argX m c) (argW m c) (argB m c) (argM m c) hX hW hB c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) scM0_0 (Memref.isWhole_whole _) scM0_1 (Memref.isWhole_whole _)
      (iblk m c 0 t) (iblk m c 1 t) (iblk m c 2 t) (k0_pay1 (iblk m c 0 t) (iblk m c 3 t) (iblk m c 4 t)) (k0_pay2 (iblk m c 5 t)) (batchOf t)
      (fun k e => xblk_at m c t k e) (fun d e => wqblk_at m c t d e) (fun d => bqblk_at m c t d)
      (pay1_is_v (argX m c) (argW m c) (argB m c) (iblk m c 0 t) (iblk m c 3 t) (iblk m c 4 t) (batchOf t)
        (fun k e => xblk_at m c t k e) (fun d e => wvblk_at m c t d e) (fun d => bvblk_at m c t d))
      (pay2_is_mask (argM m c) (iblk m c 5 t) (batchOf t) (fun k => mblk_at m c t k))
      (hM (batchOf t)) p d
  · have hpos : 0 < t.val := Nat.pos_of_ne_zero (fun h => h0 (by rw [h]))
    have hlt : t.val - 1 < cfg0.N := Nat.lt_of_le_of_lt (Nat.sub_le _ _) t.isLt
    have hb : batchOf ⟨t.val - 1, hlt⟩ = batchOf t := Fin.ext (by show (t.val - 1) / 4 = t.val / 4; omega)
    rw [outsAt0_B m c t h0]
    dsimp only
    rw [out_B_eq, ← hq]
    exact core (argX m c) (argW m c) (argB m c) (argM m c) hX hW hB c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) scM0_0 (Memref.isWhole_whole _) scM0_1 (Memref.isWhole_whole _)
      (iblk m c 0 t) (iblk m c 1 t) (iblk m c 2 t) (outsAt0 m c (t.val - 1) hlt).2.1 (outsAt0 m c (t.val - 1) hlt).2.2 (batchOf t)
      (fun k e => xblk_at m c t k e) (fun d e => wqblk_at m c t d e) (fun d => bqblk_at m c t d)
      (fun k d => hb ▸ (scr_at m c (t.val - 1) hlt k d).1)
      (fun k => hb ▸ (scr_at m c (t.val - 1) hlt k (0 : Fin 256)).2)
      (hM (batchOf t)) p d

/-- What point `t` writes back is its block of the attention output. -/
theorem flushed_eq (hX : RealValued (argX m c)) (hW : RealValued (argW m c)) (hB : RealValued (argB m c))
    (hM : ∀ b : Fin 4, ∃ k : Fin 4096, argM m c (ix3 b (0 : Fin 1) k) ≠ 0#32) (t : Fin cfg0.N) :
    (dats m 0 c).flushed 6 t
      = ((cfg0.win 6).blk t).view.read (Elt Ideal) (attnOut (argX m c) (argW m c) (argB m c) (argM m c)) := by
  rw [Cert.KernelIdeal.Value.flushed6]
  funext y
  obtain ⟨z, p, d, rfl⟩ : ∃ (z : Fin 1) (p : Fin 1024) (d : Fin 256), y = ix3 z p d := ⟨y 0, y 1, y 2, eq_ix3 y⟩
  obtain rfl : z = 0 := Subsingleton.elim _ _
  show (outsAt0 m c t.val t.isLt).1 (ix3 (0 : Fin 1) p d)
    = attnOut (argX m c) (argW m c) (argB m c) (argM m c) (((cfg0.win 6).blk t).view.emb (ix3 (0 : Fin 1) p d))
  rw [oblk_emb, attnOut_apply]
  exact oblk_at m c hX hW hB hM t p d

/-- The result array after the run is the attention output. -/
theorem final (hX : RealValued (argX m c)) (hW : RealValued (argW m c)) (hB : RealValued (argB m c))
    (hM : ∀ b : Fin 4, ∃ k : Fin 4096, argM m c (ix3 b (0 : Fin 1) k) ≠ 0#32) :
    (dats m 0 c).arrAt 6 cfg0.N = attnOut (argX m c) (argW m c) (argB m c) (argM m c) :=
  (dats m 0 c).arrAt_eq_of_cover 6 (attnOut (argX m c) (argW m c) (argB m c) (argM m c))
    (fun t _ => flushed_eq m c hX hW hB hM t) (fun j => ocover j)

end Points

/-- The kernel's run: the result array at the attention output of the arguments, the arguments unchanged. -/
theorem kernel_run (m : (ℓ : Loc nD τ sig) → Buf (Elt Ideal) ℓ) (ρ : Dev nD → PrngReg)
    (hpre : ∀ c : Dev nD, RealValued (argX m c) ∧ RealValued (argW m c) ∧ RealValued (argB m c)
      ∧ ∀ b : Fin 4, ∃ k : Fin 4096, argM m c (ix3 b (0 : Fin 1) k) ≠ 0#32) :
    θ_run defs (onTc (τ := τ) (main (F := Ideal))) ⟨m, fun _ => 0, ρ⟩ fun r => ∀ c : Dev nD,
      r.2.mem ((c : Thread nD τ).loc main_v6) = attnOut (argX m c) (argW m c) (argB m c) (argM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun r h c => ⟨(h c).1.trans (final m c (hpre c).1 (hpre c).2.1 (hpre c).2.2.1 (hpre c).2.2.2), (h c).2⟩)
    (Cert.KernelIdeal.Value.run_blocks m ρ)

end Cert.Attn

end
-- ==== Proof.lean ====
/-
  The certificate's claim for single-head attention with `q · v` scores and a key-padding mask.

  Under the precondition every entry of `x`, `W` and `bias` is a real number and every batch keeps a key
  (`Cert.Attn.of_pre`). Then the kernel's result array is `Cert.Attn.attnOut` of the four arguments
  (`Cert.Attn.kernel_run`: the streaming softmax over four key tiles is the softmax), and so is the reference's
  (`Cert.Attn.ref_is_attn`, read one operation at a time off its run). The three frames are the programs' runs with the
  result dropped; the one rewrite of the idealization reads the kernel's finite mask fill as `⊥`.
-/
import proofs.«415784_j26860725469572_3_alg».proof.Defs
import proofs.«415784_j26860725469572_3_alg».proof.Proof.Gen.Kernel
import proofs.«415784_j26860725469572_3_alg».proof.Proof.Gen.Kernel.Skeleton
import proofs.«415784_j26860725469572_3_alg».proof.Proof.Gen.Kernel.Loops
import proofs.«415784_j26860725469572_3_alg».proof.Proof.Gen.Kernel.Launch
import proofs.«415784_j26860725469572_3_alg».proof.Proof.Gen.Kernel.Points
import proofs.«415784_j26860725469572_3_alg».proof.Proof.Gen.Kernel.Frame
import proofs.«415784_j26860725469572_3_alg».proof.Proof.Gen.KernelIdeal
import proofs.«415784_j26860725469572_3_alg».proof.Proof.Gen.KernelIdeal.Skeleton
import proofs.«415784_j26860725469572_3_alg».proof.Proof.Gen.KernelIdeal.Loops
import proofs.«415784_j26860725469572_3_alg».proof.Proof.Gen.KernelIdeal.Launch
import proofs.«415784_j26860725469572_3_alg».proof.Proof.Gen.KernelIdeal.Points
import proofs.«415784_j26860725469572_3_alg».proof.Proof.Gen.KernelIdeal.Frame
import proofs.«415784_j26860725469572_3_alg».proof.Proof.Gen.ReferenceIdeal
import proofs.«415784_j26860725469572_3_alg».proof.Proof.Gen.Pre_finite_inputs
import proofs.«415784_j26860725469572_3_alg».proof.Proof.Gen.KernelIdeal.Value
import proofs.«415784_j26860725469572_3_alg».proof.Proof.Gen.ReferenceIdeal.Run
import proofs.«415784_j26860725469572_3_alg».proof.Proof.Gen.ReferenceIdeal.Read
import proofs.«415784_j26860725469572_3_alg».proof.Proof.PreDecode
import proofs.«415784_j26860725469572_3_alg».proof.Proof.RefValue
import proofs.«415784_j26860725469572_3_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite of the idealization: the kernel's mask fill, a large finite negative number, is named `⊥`. -/
theorem preserves : Cert.preserves_Kernel_KernelIdeal :=
  IdealRules.named_const.statement Cert.KernelIdeal.κ "neg_big" .f32 0xFF333332#32 ⊥ rfl

/-- Both idealized programs end with the attention output of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hp : ∀ c : Dev Cert.KernelIdeal.nD, Cert.Attn.RealValued (Cert.Attn.argX m c) ∧ Cert.Attn.RealValued (Cert.Attn.argW m c)
      ∧ Cert.Attn.RealValued (Cert.Attn.argB m c)
      ∧ ∀ b : Fin 4, ∃ k : Fin 4096, Cert.Attn.argM m c (ValueIdx.ix3 b (0 : Fin 1) k) ≠ 0#32 :=
    fun c => Cert.Attn.of_pre _ _ _ _ (hpre c)
  refine ⟨fun c => Cert.Attn.attnOut (Cert.Attn.argX m c) (Cert.Attn.argW m c) (Cert.Attn.argB m c) (Cert.Attn.argM m c),
    Cert.Attn.kernel_run m ρ hp, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.Attn.ref_is_attn, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
